-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1x16x192x192 : Shape := ⟨5, ![2, 1, 16, 192, 192]⟩
abbrev S2x54x16x192x192 : Shape := ⟨5, ![2, 54, 16, 192, 192]⟩
abbrev S_ : Shape := ⟨0, ![]⟩

class Facts : Prop where
  bcast_S_S2x1x16x192x192 : S_.BroadcastsInDim S2x1x16x192x192 (![] : Fin 0 → Fin S2x1x16x192x192.rank)
  reducesTo_S2x1x16x192x192_S_d0_1_2_3_4 : S2x1x16x192x192.ReducesTo [0, 1, 2, 3, 4] S_
  h_S_ : 0 < S_.numel
  bcast_S_S2x54x16x192x192 : S_.BroadcastsInDim S2x54x16x192x192 (![] : Fin 0 → Fin S2x54x16x192x192.rank)
  reducesTo_S2x54x16x192x192_S_d0_1_2_3_4 : S2x54x16x192x192.ReducesTo [0, 1, 2, 3, 4] S_

variable [Facts]

def fn {F : FTy → Type} [FloatOps F] (main_arg0 : FVec F S2x1x16x192x192 .f32) (main_arg1 : FVec F S2x1x16x192x192 .f32) (main_arg2 : FVec F S2x54x16x192x192 .f32) : IVec S_ 1 :=
  let main_v0 : FVec F S2x1x16x192x192 .f32 := Host.absf main_arg0
  let main_cst : FVec F S_ .f32 := constant S_ .f32 0x7F800000#32
  let main_v1 : FVec F S2x1x16x192x192 .f32 := broadcastInDim S2x1x16x192x192 ![] bcast_S_S2x1x16x192x192 main_cst
  let main_v2 : IVec S2x1x16x192x192 1 := cmpf .olt main_v0 main_v1
  let main_c : IVec S_ 1 := constantI S_ 1 1#1
  let main_v3 : IVec S_ 1 := (fun x v => Host.reduce IntOp.andi x v reducesTo_S2x1x16x192x192_S_d0_1_2_3_4 h_S_) main_v2 main_c
  let main_v4 : FVec F S2x1x16x192x192 .f32 := Host.absf main_arg1
  let main_cst_0 : FVec F S_ .f32 := constant S_ .f32 0x7F800000#32
  let main_v5 : FVec F S2x1x16x192x192 .f32 := broadcastInDim S2x1x16x192x192 ![] bcast_S_S2x1x16x192x192 main_cst_0
  let main_v6 : IVec S2x1x16x192x192 1 := cmpf .olt main_v4 main_v5
  let main_c_1 : IVec S_ 1 := constantI S_ 1 1#1
  let main_v7 : IVec S_ 1 := (fun x v => Host.reduce IntOp.andi x v reducesTo_S2x1x16x192x192_S_d0_1_2_3_4 h_S_) main_v6 main_c_1
  let main_v8 : IVec S_ 1 := andi main_v3 main_v7
  let main_v9 : FVec F S2x54x16x192x192 .f32 := Host.absf main_arg2
  let main_cst_2 : FVec F S_ .f32 := constant S_ .f32 0x7F800000#32
  let main_v10 : FVec F S2x54x16x192x192 .f32 := broadcastInDim S2x54x16x192x192 ![] bcast_S_S2x54x16x192x192 main_cst_2
  let main_v11 : IVec S2x54x16x192x192 1 := cmpf .olt main_v9 main_v10
  let main_c_3 : IVec S_ 1 := constantI S_ 1 1#1
  let main_v12 : IVec S_ 1 := (fun x v => Host.reduce IntOp.andi x v reducesTo_S2x54x16x192x192_S_d0_1_2_3_4 h_S_) main_v11 main_c_3
  let main_v13 : IVec S_ 1 := andi main_v8 main_v12
  main_v13
-- ==== Kernel.lean ====
abbrev S2x1x16x192x192 : Shape := ⟨5, ![2, 1, 16, 192, 192]⟩
abbrev S2x54x16x192x192 : Shape := ⟨5, ![2, 54, 16, 192, 192]⟩
abbrev S2x2x16x192x192 : Shape := ⟨5, ![2, 2, 16, 192, 192]⟩
abbrev S_ : Shape := ⟨0, ![]⟩
abbrev S2x2x18x194x194 : Shape := ⟨5, ![2, 2, 18, 194, 194]⟩
abbrev S1x2x18x194x194 : Shape := ⟨5, ![1, 2, 18, 194, 194]⟩
abbrev S1x54x1x192x192 : Shape := ⟨5, ![1, 54, 1, 192, 192]⟩
abbrev S1x1x1x192x192 : Shape := ⟨5, ![1, 1, 1, 192, 192]⟩
abbrev S54x192x192 : Shape := ⟨3, ![54, 192, 192]⟩
abbrev S192x192 : Shape := ⟨2, ![192, 192]⟩
abbrev S1x1x1x194x194 : Shape := ⟨5, ![1, 1, 1, 194, 194]⟩
abbrev S1x194x194 : Shape := ⟨3, ![1, 194, 194]⟩
abbrev S194x194 : Shape := ⟨2, ![194, 194]⟩
abbrev S1x192x192 : Shape := ⟨3, ![1, 192, 192]⟩

abbrev nBuf : Space → Nat
  | .hbm => 8
  | .vmem => 6
  | .smem => 0
  | _ => 0

abbrev bufTy : (tb : Table) → Fin (tcTables nBuf tb) → BufTy
  | .hbm, ⟨0, _⟩ => ⟨S2x1x16x192x192, .f32⟩
  | .hbm, ⟨1, _⟩ => ⟨S2x1x16x192x192, .f32⟩
  | .hbm, ⟨2, _⟩ => ⟨S2x54x16x192x192, .f32⟩
  | .hbm, ⟨3, _⟩ => ⟨S2x2x16x192x192, .f32⟩
  | .hbm, ⟨4, _⟩ => ⟨S_, .i32⟩
  | .hbm, ⟨5, _⟩ => ⟨S_, .f32⟩
  | .hbm, ⟨6, _⟩ => ⟨S2x2x18x194x194, .f32⟩
  | .hbm, ⟨7, _⟩ => ⟨S2x1x16x192x192, .f32⟩
  | .local _ .vmem, ⟨0, _⟩ => ⟨S1x2x18x194x194, .f32⟩
  | .local _ .vmem, ⟨1, _⟩ => ⟨S1x2x18x194x194, .f32⟩
  | .local _ .vmem, ⟨2, _⟩ => ⟨S1x54x1x192x192, .f32⟩
  | .local _ .vmem, ⟨3, _⟩ => ⟨S1x54x1x192x192, .f32⟩
  | .local _ .vmem, ⟨4, _⟩ => ⟨S1x1x1x192x192, .f32⟩
  | .local _ .vmem, ⟨5, _⟩ => ⟨S1x1x1x192x192, .f32⟩
  | _, _ => ⟨S2x1x16x192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 5 → Nat :=
  let c0_4 : Index := 0#32
  let c0_5 : Index := 0#32
  let arg1 : BitVec 32 := BitVec.ofNat 32 (i 1).val
  let v3 : BitVec 32 := Scalar.addi arg1 c0_i32
  let v4 : Index := Scalar.indexCast v3
  let c0_6 : Index := 0#32
  let c0_7 : Index := 0#32
  ![0, 0, v4.toNat, 0, 0]
def k0_off2 (i : grid0.Coords) (c0_i32_16 : BitVec 32) : Fin 5 → Nat :=
  let c0_17 : Index := 0#32
  let c1 : Index := 1#32
  let arg1 : BitVec 32 := BitVec.ofNat 32 (i 1).val
  let v153 : BitVec 32 := Scalar.addi arg1 c0_i32_16
  let v154 : Index := Scalar.indexCast v153
  let c0_18 : Index := 0#32
  let c0_19 : Index := 0#32
  ![0, 1, v154.toNat, 0, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x2x18x194x194 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x54x1x192x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x192x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  concatenates_S2x1x16x192x192_S2x1x16x192x192_S2x2x16x192x192_d1 : Shape.Concatenates [S2x1x16x192x192, S2x1x16x192x192] S2x2x16x192x192 1
  pads_S2x2x16x192x192_S2x2x18x194x194_000_000_110_110_110 : S2x2x16x192x192.Pads (![0, 0, 1, 1, 1] : Fin 5 → Nat) ![0, 0, 1, 1, 1] ![0, 0, 0, 0, 0] S2x2x18x194x194
  h_S_ : 0 < S_.numel
  inb_S1x54x1x192x192_S1x54x1x192x192_0_0_0_0_0 : ∀ a, (![0, 0, 0, 0, 0] : Fin 5 → Nat) a + S1x54x1x192x192.size a ≤ S1x54x1x192x192.size a
  h_S1x54x1x192x192 : 0 < S1x54x1x192x192.numel
  shapeCasts_S1x54x1x192x192_S54x192x192 : S1x54x1x192x192.ShapeCasts S54x192x192
  h_S1x1x1x194x194 : 0 < S1x1x1x194x194.numel
  shapeCasts_S1x1x1x194x194_S1x194x194 : S1x1x1x194x194.ShapeCasts S1x194x194
  shapeCasts_S1x194x194_S194x194 : S1x194x194.ShapeCasts S194x194
  slices_S194x194_o0_0_S192x192 : S194x194.Slices ![0, 0] S192x192
  slices_S54x192x192_o0_0_0_S1x192x192 : S54x192x192.Slices ![0, 0, 0] S1x192x192
  shapeCasts_S1x192x192_S192x192 : S1x192x192.ShapeCasts S192x192
  slices_S194x194_o0_1_S192x192 : S194x194.Slices ![0, 1] S192x192
  slices_S54x192x192_o1_0_0_S1x192x192 : S54x192x192.Slices ![1, 0, 0] S1x192x192
  slices_S194x194_o0_2_S192x192 : S194x194.Slices ![0, 2] S192x192
  slices_S54x192x192_o2_0_0_S1x192x192 : S54x192x192.Slices ![2, 0, 0] S1x192x192
  slices_S194x194_o1_0_S192x192 : S194x194.Slices ![1, 0] S192x192
  slices_S54x192x192_o3_0_0_S1x192x192 : S54x192x192.Slices ![3, 0, 0] S1x192x192
  slices_S194x194_o1_1_S192x192 : S194x194.Slices ![1, 1] S192x192
  slices_S54x192x192_o4_0_0_S1x192x192 : S54x192x192.Slices ![4, 0, 0] S1x192x192
  slices_S194x194_o1_2_S192x192 : S194x194.Slices ![1, 2] S192x192
  slices_S54x192x192_o5_0_0_S1x192x192 : S54x192x192.Slices ![5, 0, 0] S1x192x192
  slices_S194x194_o2_0_S192x192 : S194x194.Slices ![2, 0] S192x192
  slices_S54x192x192_o6_0_0_S1x192x192 : S54x192x192.Slices ![6, 0, 0] S1x192x192
  slices_S194x194_o2_1_S192x192 : S194x194.Slices ![2, 1] S192x192
  slices_S54x192x192_o7_0_0_S1x192x192 : S54x192x192.Slices ![7, 0, 0] S1x192x192
  slices_S194x194_o2_2_S192x192 : S194x194.Slices ![2, 2] S192x192
  slices_S54x192x192_o8_0_0_S1x192x192 : S54x192x192.Slices ![8, 0, 0] S1x192x192
  slices_S54x192x192_o9_0_0_S1x192x192 : S54x192x192.Slices ![9, 0, 0] S1x192x192
  slices_S54x192x192_o10_0_0_S1x192x192 : S54x192x192.Slices ![10, 0, 0] S1x192x192
  slices_S54x192x192_o11_0_0_S1x192x192 : S54x192x192.Slices ![11, 0, 0] S1x192x192
  slices_S54x192x192_o12_0_0_S1x192x192 : S54x192x192.Slices ![12, 0, 0] S1x192x192
  slices_S54x192x192_o13_0_0_S1x192x192 : S54x192x192.Slices ![13, 0, 0] S1x192x192
  slices_S54x192x192_o14_0_0_S1x192x192 : S54x192x192.Slices ![14, 0, 0] S1x192x192
  slices_S54x192x192_o15_0_0_S1x192x192 : S54x192x192.Slices ![15, 0, 0] S1x192x192
  slices_S54x192x192_o16_0_0_S1x192x192 : S54x192x192.Slices ![16, 0, 0] S1x192x192
  slices_S54x192x192_o17_0_0_S1x192x192 : S54x192x192.Slices ![17, 0, 0] S1x192x192
  slices_S54x192x192_o18_0_0_S1x192x192 : S54x192x192.Slices ![18, 0, 0] S1x192x192
  slices_S54x192x192_o19_0_0_S1x192x192 : S54x192x192.Slices ![19, 0, 0] S1x192x192
  slices_S54x192x192_o20_0_0_S1x192x192 : S54x192x192.Slices ![20, 0, 0] S1x192x192
  slices_S54x192x192_o21_0_0_S1x192x192 : S54x192x192.Slices ![21, 0, 0] S1x192x192
  slices_S54x192x192_o22_0_0_S1x192x192 : S54x192x192.Slices ![22, 0, 0] S1x192x192
  slices_S54x192x192_o23_0_0_S1x192x192 : S54x192x192.Slices ![23, 0, 0] S1x192x192
  slices_S54x192x192_o24_0_0_S1x192x192 : S54x192x192.Slices ![24, 0, 0] S1x192x192
  slices_S54x192x192_o25_0_0_S1x192x192 : S54x192x192.Slices ![25, 0, 0] S1x192x192
  slices_S54x192x192_o26_0_0_S1x192x192 : S54x192x192.Slices ![26, 0, 0] S1x192x192
  slices_S54x192x192_o27_0_0_S1x192x192 : S54x192x192.Slices ![27, 0, 0] S1x192x192
  slices_S54x192x192_o28_0_0_S1x192x192 : S54x192x192.Slices ![28, 0, 0] S1x192x192
  slices_S54x192x192_o29_0_0_S1x192x192 : S54x192x192.Slices ![29, 0, 0] S1x192x192
  slices_S54x192x192_o30_0_0_S1x192x192 : S54x192x192.Slices ![30, 0, 0] S1x192x192
  slices_S54x192x192_o31_0_0_S1x192x192 : S54x192x192.Slices ![31, 0, 0] S1x192x192
  slices_S54x192x192_o32_0_0_S1x192x192 : S54x192x192.Slices ![32, 0, 0] S1x192x192
  slices_S54x192x192_o33_0_0_S1x192x192 : S54x192x192.Slices ![33, 0, 0] S1x192x192
  slices_S54x192x192_o34_0_0_S1x192x192 : S54x192x192.Slices ![34, 0, 0] S1x192x192
  slices_S54x192x192_o35_0_0_S1x192x192 : S54x192x192.Slices ![35, 0, 0] S1x192x192
  slices_S54x192x192_o36_0_0_S1x192x192 : S54x192x192.Slices ![36, 0, 0] S1x192x192
  slices_S54x192x192_o37_0_0_S1x192x192 : S54x192x192.Slices ![37, 0, 0] S1x192x192
  slices_S54x192x192_o38_0_0_S1x192x192 : S54x192x192.Slices ![38, 0, 0] S1x192x192
  slices_S54x192x192_o39_0_0_S1x192x192 : S54x192x192.Slices ![39, 0, 0] S1x192x192
  slices_S54x192x192_o40_0_0_S1x192x192 : S54x192x192.Slices ![40, 0, 0] S1x192x192
  slices_S54x192x192_o41_0_0_S1x192x192 : S54x192x192.Slices ![41, 0, 0] S1x192x192
  slices_S54x192x192_o42_0_0_S1x192x192 : S54x192x192.Slices ![42, 0, 0] S1x192x192
  slices_S54x192x192_o43_0_0_S1x192x192 : S54x192x192.Slices ![43, 0, 0] S1x192x192
  slices_S54x192x192_o44_0_0_S1x192x192 : S54x192x192.Slices ![44, 0, 0] S1x192x192
  slices_S54x192x192_o45_0_0_S1x192x192 : S54x192x192.Slices ![45, 0, 0] S1x192x192
  slices_S54x192x192_o46_0_0_S1x192x192 : S54x192x192.Slices ![46, 0, 0] S1x192x192
  slices_S54x192x192_o47_0_0_S1x192x192 : S54x192x192.Slices ![47, 0, 0] S1x192x192
  slices_S54x192x192_o48_0_0_S1x192x192 : S54x192x192.Slices ![48, 0, 0] S1x192x192
  slices_S54x192x192_o49_0_0_S1x192x192 : S54x192x192.Slices ![49, 0, 0] S1x192x192
  slices_S54x192x192_o50_0_0_S1x192x192 : S54x192x192.Slices ![50, 0, 0] S1x192x192
  slices_S54x192x192_o51_0_0_S1x192x192 : S54x192x192.Slices ![51, 0, 0] S1x192x192
  slices_S54x192x192_o52_0_0_S1x192x192 : S54x192x192.Slices ![52, 0, 0] S1x192x192
  slices_S54x192x192_o53_0_0_S1x192x192 : S54x192x192.Slices ![53, 0, 0] S1x192x192
  shapeCasts_S192x192_S1x1x1x192x192 : S192x192.ShapeCasts S1x1x1x192x192
  inb_S1x1x1x192x192_S1x1x1x192x192_0_0_0_0_0 : ∀ a, (![0, 0, 0, 0, 0] : Fin 5 → Nat) a + S1x1x1x192x192.size a ≤ S1x1x1x192x192.size a
  h_S1x1x1x192x192 : 0 < S1x1x1x192x192.numel
  hrank0 : 0 < grid0.rank
  k0_off1_inb : ∀ i : grid0.Coords, ∀ (r : Fin 3), ∀ a, (k0_off1 i (BitVec.ofNat 32 r.val)) a + S1x1x1x194x194.size a ≤ S1x2x18x194x194.size a
  k0_off2_inb : ∀ i : grid0.Coords, ∀ (r : Fin 3), ∀ a, (k0_off2 i (BitVec.ofNat 32 r.val)) a + S1x1x1x194x194.size a ≤ S1x2x18x194x194.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x18x194x194.size a ≤ S2x2x18x194x194.size a
  hwx0_0 : ∀ i : grid0.Coords, EltTy.bits .f32 = 32 ∨ (Rect.block (s := S2x2x18x194x194) S1x2x18x194x194.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x54x1x192x192.size a ≤ S2x54x16x192x192.size a
  hwx0_1 : ∀ i : grid0.Coords, EltTy.bits .f32 = 32 ∨ (Rect.block (s := S2x54x16x192x192) S1x54x1x192x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x192x192.size a ≤ S2x1x16x192x192.size a
  hwx0_2 : ∀ i : grid0.Coords, EltTy.bits .f32 = 32 ∨ (Rect.block (s := S2x1x16x192x192) S1x1x1x192x192.size (cc0_transform_2 i) (hinb0_2 i)).WholeWords (EltTy.packing .f32)

variable [Facts₀]

abbrev win0_0 : Pipeline.Window sig grid0 :=
  Pipeline.Window.ofSpec (Memref.whole main_v1) S1x2x18x194x194.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x54x1x192x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1x192x192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x1x16x192x192 : Shape := ⟨5, ![2, 1, 16, 192, 192]⟩
abbrev S2x54x16x192x192 : Shape := ⟨5, ![2, 54, 16, 192, 192]⟩
abbrev S2x2x16x192x192 : Shape := ⟨5, ![2, 2, 16, 192, 192]⟩
abbrev S_ : Shape := ⟨0, ![]⟩
abbrev S2x2x18x194x194 : Shape := ⟨5, ![2, 2, 18, 194, 194]⟩
abbrev S2x2x1x16x192x192 : Shape := ⟨6, ![2, 2, 1, 16, 192, 192]⟩
abbrev S2x2x16x16x192x192 : Shape := ⟨6, ![2, 2, 16, 16, 192, 192]⟩
abbrev S2x2x11x16x192x192 : Shape := ⟨6, ![2, 2, 11, 16, 192, 192]⟩
abbrev S2x2x27x16x192x192 : Shape := ⟨6, ![2, 2, 27, 16, 192, 192]⟩
abbrev S2x16x192x192 : Shape := ⟨4, ![2, 16, 192, 192]⟩

abbrev nBuf : Space → Nat
  | .hbm => 69
  | .vmem => 0
  | .smem => 0
  | _ => 0

abbrev bufTy : (tb : Table) → Fin (tcTables nBuf tb) → BufTy
  | .hbm, ⟨0, _⟩ => ⟨S2x1x16x192x192, .f32⟩
  | .hbm, ⟨1, _⟩ => ⟨S2x1x16x192x192, .f32⟩
  | .hbm, ⟨2, _⟩ => ⟨S2x54x16x192x192, .f32⟩
  | .hbm, ⟨3, _⟩ => ⟨S2x2x16x192x192, .f32⟩
  | .hbm, ⟨4, _⟩ => ⟨S_, .i32⟩
  | .hbm, ⟨5, _⟩ => ⟨S_, .f32⟩
  | .hbm, ⟨6, _⟩ => ⟨S2x2x18x194x194, .f32⟩
  | .hbm, ⟨7, _⟩ => ⟨S2x2x16x192x192, .f32⟩
  | .hbm, ⟨8, _⟩ => ⟨S2x2x16x192x192, .f32⟩
  | .hbm, ⟨9, _⟩ => ⟨S2x2x16x192x192, .f32⟩
  | .hbm, ⟨10, _⟩ => ⟨S2x2x16x192x192, .f32⟩
  | .hbm, ⟨11, _⟩ => ⟨S2x2x16x192x192, .f32⟩
  | .hbm, ⟨12, _⟩ => ⟨S2x2x16x192x192, .f32⟩
  | .hbm, ⟨13, _⟩ => ⟨S2x2x16x192x192, .f32⟩
  | .hbm, ⟨14, _⟩ => ⟨S2x2x16x192x192, .f32⟩
  | .hbm, ⟨15, _⟩ => ⟨S2x2x16x192x192, .f32⟩
  | .hbm, ⟨16, _⟩ => ⟨S2x2x16x192x192, .f32⟩
  | .hbm, ⟨17, _⟩ => ⟨S2x2x16x192x192, .f32⟩
  | .hbm, ⟨18, _⟩ => ⟨S2x2x16x192x192, .f32⟩
  | .hbm, ⟨19, _⟩ => ⟨S2x2x16x192x192, .f32⟩
  | .hbm, ⟨20, _⟩ => ⟨S2x2x16x192x192, .f32⟩
  | .hbm, ⟨21, _⟩ => ⟨S2x2x16x192x192, .f32⟩
  | .hbm, ⟨22, _⟩ => ⟨S2x2x16x192x192, .f32⟩
  | .hbm, ⟨23, _⟩ => ⟨S2x2x16x192x192, .f32⟩
  | .hbm, ⟨24, _⟩ => ⟨S2x2x16x192x192, .f32⟩
  | .hbm, ⟨25, _⟩ => ⟨S2x2x16x192x192, .f32⟩
  | .hbm, ⟨26, _⟩ => ⟨S2x2x16x192x192, .f32⟩
  | .hbm, ⟨27, _⟩ => ⟨S2x2x16x192x192, .f32⟩
  | .hbm, ⟨28, _⟩ => ⟨S2x2x16x192x192, .f32⟩
  | .hbm, ⟨29, _⟩ => ⟨S2x2x16x192x192, .f32⟩
  | .hbm, ⟨30, _⟩ => ⟨S2x2x16x192x192, .f32⟩
  | .hbm, ⟨31, _⟩ => ⟨S2x2x16x192x192, .f32⟩
  | .hbm, ⟨32, _⟩ => ⟨S2x2x16x192x192, .f32⟩
  | .hbm, ⟨33, _⟩ => ⟨S2x2x16x192x192, .f32⟩
  | .hbm, ⟨34, _⟩ => ⟨S2x2x1x16x192x192, .f32⟩
  | .hbm, ⟨35, _⟩ => ⟨S2x2x1x16x192x192, .f32⟩
  | .hbm, ⟨36, _⟩ => ⟨S2x2x1x16x192x192, .f32⟩
  | .hbm, ⟨37, _⟩ => ⟨S2x2x1x16x192x192, .f32⟩
  | .hbm, ⟨38, _⟩ => ⟨S2x2x1x16x192x192, .f32⟩
  | .hbm, ⟨39, _⟩ => ⟨S2x2x1x16x192x192, .f32⟩
  | .hbm, ⟨40, _⟩ => ⟨S2x2x1x16x192x192, .f32⟩
  | .hbm, ⟨41, _⟩ => ⟨S2x2x1x16x192x192, .f32⟩
  | .hbm, ⟨42, _⟩ => ⟨S2x2x1x16x192x192, .f32⟩
  | .hbm, ⟨43, _⟩ => ⟨S2x2x1x16x192x192, .f32⟩
  | .hbm, ⟨44, _⟩ => ⟨S2x2x1x16x192x192, .f32⟩
  | .hbm, ⟨45, _⟩ => ⟨S2x2x1x16x192x192, .f32⟩
  | .hbm, ⟨46, _⟩ => ⟨S2x2x1x16x192x192, .f32⟩
  | .hbm, ⟨47, _⟩ => ⟨S2x2x1x16x192x192, .f32⟩
  | .hbm, ⟨48, _⟩ => ⟨S2x2x1x16x192x192, .f32⟩
  | .hbm, ⟨49, _⟩ => ⟨S2x2x1x16x192x192, .f32⟩
  | .hbm, ⟨50, _⟩ => ⟨S2x2x1x16x192x192, .f32⟩
  | .hbm, ⟨51, _⟩ => ⟨S2x2x1x16x192x192, .f32⟩
  | .hbm, ⟨52, _⟩ => ⟨S2x2x1x16x192x192, .f32⟩
  | .hbm, ⟨53, _⟩ => ⟨S2x2x1x16x192x192, .f32⟩
  | .hbm, ⟨54, _⟩ => ⟨S2x2x1x16x192x192, .f32⟩
  | .hbm, ⟨55, _⟩ => ⟨S2x2x1x16x192x192, .f32⟩
  | .hbm, ⟨56, _⟩ => ⟨S2x2x1x16x192x192, .f32⟩
  | .hbm, ⟨57, _⟩ => ⟨S2x2x1x16x192x192, .f32⟩
  | .hbm, ⟨58, _⟩ => ⟨S2x2x1x16x192x192, .f32⟩
  | .hbm, ⟨59, _⟩ => ⟨S2x2x1x16x192x192, .f32⟩
  | .hbm, ⟨60, _⟩ => ⟨S2x2x1x16x192x192, .f32⟩
  | .hbm, ⟨61, _⟩ => ⟨S2x2x16x16x192x192, .f32⟩
  | .hbm, ⟨62, _⟩ => ⟨S2x2x11x16x192x192, .f32⟩
  | .hbm, ⟨63, _⟩ => ⟨S2x2x27x16x192x192, .f32⟩
  | .hbm, ⟨64, _⟩ => ⟨S2x54x16x192x192, .f32⟩
  | .hbm, ⟨65, _⟩ => ⟨S2x54x16x192x192, .f32⟩
  | .hbm, ⟨66, _⟩ => ⟨S_, .f32⟩
  | .hbm, ⟨67, _⟩ => ⟨S2x16x192x192, .f32⟩
  | .hbm, ⟨68, _⟩ => ⟨S2x1x16x192x192, .f32⟩
  | _, _ => ⟨S2x1x16x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_cst : Ref sig .tc := ⟨.hbm, 66, rfl⟩
abbrev main_v61 : Ref sig .tc := ⟨.hbm, 67, rfl⟩
abbrev main_v62 : Ref sig .tc := ⟨.hbm, 68, rfl⟩

abbrev nD : Nat := 1
abbrev τ : Topo := Topo.v7x

variable {F : FTy → Type} [FloatOps F]

class Facts₀ : Prop where
  concatenates_S2x1x16x192x192_S2x1x16x192x192_S2x2x16x192x192_d1 : Shape.Concatenates [S2x1x16x192x192, S2x1x16x192x192] S2x2x16x192x192 1
  pads_S2x2x16x192x192_S2x2x18x194x194_000_000_110_110_110 : S2x2x16x192x192.Pads (![0, 0, 1, 1, 1] : Fin 5 → Nat) ![0, 0, 1, 1, 1] ![0, 0, 0, 0, 0] S2x2x18x194x194
  h_S_ : 0 < S_.numel
  slices_S2x2x18x194x194_S2x2x16x192x192_0_0_0_0_0 : S2x2x18x194x194.Slices ![0, 0, 0, 0, 0] S2x2x16x192x192
  slices_S2x2x18x194x194_S2x2x16x192x192_0_0_0_0_1 : S2x2x18x194x194.Slices ![0, 0, 0, 0, 1] S2x2x16x192x192
  slices_S2x2x18x194x194_S2x2x16x192x192_0_0_0_0_2 : S2x2x18x194x194.Slices ![0, 0, 0, 0, 2] S2x2x16x192x192
  slices_S2x2x18x194x194_S2x2x16x192x192_0_0_0_1_0 : S2x2x18x194x194.Slices ![0, 0, 0, 1, 0] S2x2x16x192x192
  slices_S2x2x18x194x194_S2x2x16x192x192_0_0_0_1_1 : S2x2x18x194x194.Slices ![0, 0, 0, 1, 1] S2x2x16x192x192
  slices_S2x2x18x194x194_S2x2x16x192x192_0_0_0_1_2 : S2x2x18x194x194.Slices ![0, 0, 0, 1, 2] S2x2x16x192x192
  slices_S2x2x18x194x194_S2x2x16x192x192_0_0_0_2_0 : S2x2x18x194x194.Slices ![0, 0, 0, 2, 0] S2x2x16x192x192
  slices_S2x2x18x194x194_S2x2x16x192x192_0_0_0_2_1 : S2x2x18x194x194.Slices ![0, 0, 0, 2, 1] S2x2x16x192x192
  slices_S2x2x18x194x194_S2x2x16x192x192_0_0_0_2_2 : S2x2x18x194x194.Slices ![0, 0, 0, 2, 2] S2x2x16x192x192
  slices_S2x2x18x194x194_S2x2x16x192x192_0_0_1_0_0 : S2x2x18x194x194.Slices ![0, 0, 1, 0, 0] S2x2x16x192x192
  slices_S2x2x18x194x194_S2x2x16x192x192_0_0_1_0_1 : S2x2x18x194x194.Slices ![0, 0, 1, 0, 1] S2x2x16x192x192
  slices_S2x2x18x194x194_S2x2x16x192x192_0_0_1_0_2 : S2x2x18x194x194.Slices ![0, 0, 1, 0, 2] S2x2x16x192x192
  slices_S2x2x18x194x194_S2x2x16x192x192_0_0_1_1_0 : S2x2x18x194x194.Slices ![0, 0, 1, 1, 0] S2x2x16x192x192
  slices_S2x2x18x194x194_S2x2x16x192x192_0_0_1_1_1 : S2x2x18x194x194.Slices ![0, 0, 1, 1, 1] S2x2x16x192x192
  slices_S2x2x18x194x194_S2x2x16x192x192_0_0_1_1_2 : S2x2x18x194x194.Slices ![0, 0, 1, 1, 2] S2x2x16x192x192
  slices_S2x2x18x194x194_S2x2x16x192x192_0_0_1_2_0 : S2x2x18x194x194.Slices ![0, 0, 1, 2, 0] S2x2x16x192x192
  slices_S2x2x18x194x194_S2x2x16x192x192_0_0_1_2_1 : S2x2x18x194x194.Slices ![0, 0, 1, 2, 1] S2x2x16x192x192
  slices_S2x2x18x194x194_S2x2x16x192x192_0_0_1_2_2 : S2x2x18x194x194.Slices ![0, 0, 1, 2, 2] S2x2x16x192x192
  slices_S2x2x18x194x194_S2x2x16x192x192_0_0_2_0_0 : S2x2x18x194x194.Slices ![0, 0, 2, 0, 0] S2x2x16x192x192
  slices_S2x2x18x194x194_S2x2x16x192x192_0_0_2_0_1 : S2x2x18x194x194.Slices ![0, 0, 2, 0, 1] S2x2x16x192x192
  slices_S2x2x18x194x194_S2x2x16x192x192_0_0_2_0_2 : S2x2x18x194x194.Slices ![0, 0, 2, 0, 2] S2x2x16x192x192
  slices_S2x2x18x194x194_S2x2x16x192x192_0_0_2_1_0 : S2x2x18x194x194.Slices ![0, 0, 2, 1, 0] S2x2x16x192x192
  slices_S2x2x18x194x194_S2x2x16x192x192_0_0_2_1_1 : S2x2x18x194x194.Slices ![0, 0, 2, 1, 1] S2x2x16x192x192
  slices_S2x2x18x194x194_S2x2x16x192x192_0_0_2_1_2 : S2x2x18x194x194.Slices ![0, 0, 2, 1, 2] S2x2x16x192x192
  slices_S2x2x18x194x194_S2x2x16x192x192_0_0_2_2_0 : S2x2x18x194x194.Slices ![0, 0, 2, 2, 0] S2x2x16x192x192
  slices_S2x2x18x194x194_S2x2x16x192x192_0_0_2_2_1 : S2x2x18x194x194.Slices ![0, 0, 2, 2, 1] S2x2x16x192x192
  slices_S2x2x18x194x194_S2x2x16x192x192_0_0_2_2_2 : S2x2x18x194x194.Slices ![0, 0, 2, 2, 2] S2x2x16x192x192
  bcast_S2x2x16x192x192_S2x2x1x16x192x192_0_1_3_4_5 : S2x2x16x192x192.BroadcastsInDim S2x2x1x16x192x192 (![0, 1, 3, 4, 5] : Fin 5 → Fin S2x2x1x16x192x192.rank)
  concatenates_S2x2x1x16x192x192_S2x2x1x16x192x192_S2x2x1x16x192x192_S2x2x1x16x192x192_S2x2x1x16x192x192_S2x2x1x16x192x192_S2x2x1x16x192x192_S2x2x1x16x192x192_S2x2x1x16x192x192_S2x2x1x16x192x192_S2x2x1x16x192x192_S2x2x1x16x192x192_S2x2x1x16x192x192_S2x2x1x16x192x192_S2x2x1x16x192x192_S2x2x1x16x192x192_S2x2x16x16x192x192_d2 : Shape.Concatenates [S2x2x1x16x192x192, S2x2x1x16x192x192, S2x2x1x16x192x192, S2x2x1x16x192x192, S2x2x1x16x192x192, S2x2x1x16x192x192, S2x2x1x16x192x192, S2x2x1x16x192x192, S2x2x1x16x192x192, S2x2x1x16x192x192, S2x2x1x16x192x192, S2x2x1x16x192x192, S2x2x1x16x192x192, S2x2x1x16x192x192, S2x2x1x16x192x192, S2x2x1x16x192x192] S2x2x16x16x192x192 2
  concatenates_S2x2x1x16x192x192_S2x2x1x16x192x192_S2x2x1x16x192x192_S2x2x1x16x192x192_S2x2x1x16x192x192_S2x2x1x16x192x192_S2x2x1x16x192x192_S2x2x1x16x192x192_S2x2x1x16x192x192_S2x2x1x16x192x192_S2x2x1x16x192x192_S2x2x11x16x192x192_d2 : Shape.Concatenates [S2x2x1x16x192x192, S2x2x1x16x192x192, S2x2x1x16x192x192, S2x2x1x16x192x192, S2x2x1x16x192x192, S2x2x1x16x192x192, S2x2x1x16x192x192, S2x2x1x16x192x192, S2x2x1x16x192x192, S2x2x1x16x192x192, S2x2x1x16x192x192] S2x2x11x16x192x192 2
  concatenates_S2x2x16x16x192x192_S2x2x11x16x192x192_S2x2x27x16x192x192_d2 : Shape.Concatenates [S2x2x16x16x192x192, S2x2x11x16x192x192] S2x2x27x16x192x192 2
  shapeCasts_S2x2x27x16x192x192_S2x54x16x192x192 : S2x2x27x16x192x192.ShapeCasts S2x54x16x192x192
  reducesTo_S2x54x16x192x192_S2x16x192x192_d1 : S2x54x16x192x192.ReducesTo [1] S2x16x192x192
  bcast_S2x16x192x192_S2x1x16x192x192_0_2_3_4 : S2x16x192x192.BroadcastsInDim S2x1x16x192x192 (![0, 2, 3, 4] : Fin 4 → Fin S2x1x16x192x192.rank)

variable [Facts₀]

class Facts : Prop extends Facts₀ where

variable [Facts]
-- ==== Proof.Spec.lean ====
/-
  The function both programs compute, stated once over plain arrays of extended reals.

  `P` is the zero-padded stack of the two candidate volumes, shape [2, 2, 18, 194, 194] (batch, candidate,
  depth + 2, height + 2, width + 2); `W` the per-pixel filters, shape [2, 54, 16, 192, 192]. Channel
  `k` of the 54 is candidate `k / 27` at the 3 × 3 × 3 offset `((k % 27) / 9, (k % 9) / 3, k % 3)`, so
  the result at `(b, 0, d, h, w)` is

      0 + ∑ k < 54, P (b, k / 27, d + (k % 27) / 9, h + (k % 9) / 3, w + k % 3) · W (b, k, d, h, w).

  The leading `0` is kept as the word both programs start their sum from. A sum of 54 terms added
  to a start value one after the other is that start value plus the sum (`sum54`): addition of extended
  reals is associative, which is all the two programs' different groupings need.
-/
import Idealize.ShloMosaic.PureOps.Ideal
import Idealize.ShloMosaic.PureOps.Ideal.Laws
import Idealize.ShloMosaic.Lib.ValueIdx
import Mathlib.Algebra.BigOperators.Fin

noncomputable section

namespace Cert.DynFilter

open Idealize.ShloMosaic Idealize.ShloMosaic.ValueIdx

/-- The padded candidate stack's shape, the filters' and the result's. -/
abbrev SP : Shape := ⟨5, ![2, 2, 18, 194, 194]⟩
abbrev SW : Shape := ⟨5, ![2, 54, 16, 192, 192]⟩
abbrev SO : Shape := ⟨5, ![2, 1, 16, 192, 192]⟩

/-- Where channel `k` reads the padded stack for the output position `(b, d, h, w)`. -/
def tapIdx (b : Fin 2) (k : Fin 54) (d : Fin 16) (h w : Fin 192) : SP.Idx :=
  ix5 (n0 := 2) (n1 := 2) (n2 := 18) (n3 := 194) (n4 := 194) b
    ⟨k.val / 27, by have := k.isLt; omega⟩
    ⟨d.val + k.val % 27 / 9, by have := d.isLt; omega⟩
    ⟨h.val + k.val % 9 / 3, by have := h.isLt; omega⟩
    ⟨w.val + k.val % 3, by have := w.isLt; omega⟩

/-- Where channel `k` reads the filters for that position. -/
def filtIdx (b : Fin 2) (k : Fin 54) (d : Fin 16) (h w : Fin 192) : SW.Idx :=
  ix5 (n0 := 2) (n1 := 54) (n2 := 16) (n3 := 192) (n4 := 192) b k d h w

/-- One grid point's staged block of the padded stack (all candidates, depths, rows and columns of one batch entry),
    and its block of the filters (all 54 channels of one batch entry at one depth). -/
abbrev SPb : Shape := ⟨5, ![1, 2, 18, 194, 194]⟩
abbrev SWb : Shape := ⟨5, ![1, 54, 1, 192, 192]⟩
abbrev SOb : Shape := ⟨5, ![1, 1, 1, 192, 192]⟩

/-- Where channel `k` reads the staged block of the padded stack, at depth `d`, for the output pixel `(h, w)`. -/
def blkTapIdx (d : Fin 16) (k : Fin 54) (h w : Fin 192) : SPb.Idx :=
  ix5 (n0 := 1) (n1 := 2) (n2 := 18) (n3 := 194) (n4 := 194) (0 : Fin 1)
    ⟨k.val / 27, by have := k.isLt; omega⟩
    ⟨d.val + k.val % 27 / 9, by have := d.isLt; omega⟩
    ⟨h.val + k.val % 9 / 3, by have := h.isLt; omega⟩
    ⟨w.val + k.val % 3, by have := w.isLt; omega⟩

/-- Where channel `k` reads the staged block of the filters for that pixel. -/
def blkFiltIdx (k : Fin 54) (h w : Fin 192) : SWb.Idx :=
  ix5 (n0 := 1) (n1 := 54) (n2 := 1) (n3 := 192) (n4 := 192) (0 : Fin 1) k (0 : Fin 1) h w

/-- One channel's product, read off the two staged blocks. -/
def blkTerm (X : SPb.Idx → EReal) (Y : SWb.Idx → EReal) (d : Fin 16) (h w : Fin 192) (k : Fin 54) : EReal :=
  X (blkTapIdx d k h w) * Y (blkFiltIdx k h w)

/-- One channel's product. -/
def tapTerm (P : SP.Idx → EReal) (W : SW.Idx → EReal) (b : Fin 2) (d : Fin 16) (h w : Fin 192) (k : Fin 54) : EReal :=
  P (tapIdx b k d h w) * W (filtIdx b k d h w)

/-- The dynamic filter: the 54 channel products summed, from the zero word. -/
def conv (P : SP.Idx → EReal) (W : SW.Idx → EReal) : SO.Idx → EReal := fun i =>
  Ideal.ofBits .f32 0x00000000#32 + ∑ k : Fin 54, tapTerm P W (i 0) (i 2) (i 3) (i 4) k

/-- 54 terms added to `z` one after the other, in order, are `z` plus their sum. -/
theorem sum54 (R : Fin 54 → EReal) (z : EReal) :
    z + ∑ k : Fin 54, R k = z + R 0 + R 1 + R 2 + R 3 + R 4 + R 5 + R 6 + R 7 + R 8 + R 9 + R 10 + R 11 + R 12 + R 13 + R 14 + R 15 + R 16 + R 17 + R 18 + R 19 + R 20 + R 21 + R 22 + R 23 + R 24 + R 25 + R 26 + R 27 + R 28 + R 29 + R 30 + R 31 + R 32 + R 33 + R 34 + R 35 + R 36 + R 37 + R 38 + R 39 + R 40 + R 41 + R 42 + R 43 + R 44 + R 45 + R 46 + R 47 + R 48 + R 49 + R 50 + R 51 + R 52 + R 53 := by
  simp only [Fin.sum_univ_castSucc, Fin.sum_univ_zero, zero_add, ← add_assoc]
  rfl

end Cert.DynFilter

end
-- ==== Proof.KernelPointTaps.lean ====
/-
  The kernel body's arithmetic read at one pixel: the layout steps and the running sum.

  The body handles `[194, 194]` planes of the padded candidate stack and the `[54, 192, 192]` stack of
  per-pixel filters. A channel's product is a plane sliced at an offset `(dj, dk)` (to `[192, 192]`) times one
  filter channel (sliced out of the 54 and cast to `[192, 192]`); at pixel `(h, w)` that is the plane at
  `(h + dj, w + dk)` times the filter at `(h, w)`. Channel `n` of the 54 uses candidate `n / 27`, depth offset
  `(n % 27) / 9` and slice offsets `((n % 9) / 3, n % 3)`, so its product is `blkTerm … n`. The body adds the
  products one after the other to a zero start value; `psum n` is that running sum after `n` channels, and
  `psum 54` is the sum the specification names.
-/
import proofs.«105764_j65369402245158_1_alg».proof.Proof.Spec
import proofs.«105764_j65369402245158_1_alg».proof.KernelIdeal
import Idealize.ShloMosaic.Lib.Pipeline.Value
import Idealize.ShloMosaic.Lib.ValueIdx
import Idealize.ShloMosaic.Lib.ValueLayout

set_option maxRecDepth 16384

noncomputable section

namespace Cert.DynFilter.Body

open Cert.KernelIdeal Idealize.ShloMosaic Idealize.ShloMosaic.ValueIdx

/-! ## Layout steps of the body, read at one index -/

section Layout
variable {α : Type}

/-- A `[1, 1, 1, 194, 194]` plane cast to `[1, 194, 194]` and then to `[194, 194]` reads, at `(p, q)`, the
    operand at `(0, 0, 0, p, q)`: both casts keep the row-major position. -/
theorem plane_cast_apply (v : S1x1x1x194x194.Idx → α) (hc1 : S1x1x1x194x194.ShapeCasts S1x194x194)
    (hc2 : S1x194x194.ShapeCasts S194x194) (p q : Fin 194) :
    shapeCast S194x194 (shapeCast S1x194x194 v hc1) hc2 (ix2 p q)
      = v (ix5 (0 : Fin 1) (0 : Fin 1) (0 : Fin 1) p q) :=
  (shapeCast_1ab_ab_apply _ hc2 p q).trans (shapeCast_apply v hc1 _ _ (by
    rw [Shape.rowMajor_val_five, Shape.rowMajor_val_three]
    show ((((0 * 1 + 0) * 1 + 0) * 194 + p.val) * 194 + q.val) = (0 * 194 + p.val) * 194 + q.val
    simp only [Nat.zero_mul, Nat.zero_add, Nat.mul_one, Nat.add_zero]))

/-- The filter block `[1, 54, 1, 192, 192]` cast to `[54, 192, 192]` reads, at `(k, h, w)`, the operand at
    `(0, k, 0, h, w)`. -/
theorem filt_cast_apply (v : S1x54x1x192x192.Idx → α) (hc : S1x54x1x192x192.ShapeCasts S54x192x192)
    (k : Fin 54) (h w : Fin 192) :
    shapeCast S54x192x192 v hc (ix3 k h w) = v (ix5 (0 : Fin 1) k (0 : Fin 1) h w) :=
  shapeCast_apply v hc _ _ (by
    rw [Shape.rowMajor_val_five, Shape.rowMajor_val_three]
    show ((((0 * 54 + k.val) * 1 + 0) * 192 + h.val) * 192 + w.val) = (k.val * 192 + h.val) * 192 + w.val
    simp only [Nat.zero_mul, Nat.zero_add, Nat.mul_one, Nat.add_zero])

/-- The result `[192, 192]` cast to the output block `[1, 1, 1, 192, 192]` reads, at `(0, 0, 0, h, w)`, the
    operand at `(h, w)`. -/
theorem out_cast_apply (v : S192x192.Idx → α) (hc : S192x192.ShapeCasts S1x1x1x192x192) (h w : Fin 192) :
    shapeCast S1x1x1x192x192 v hc (ix5 (0 : Fin 1) (0 : Fin 1) (0 : Fin 1) h w) = v (ix2 h w) :=
  shapeCast_apply v hc _ _ (by
    rw [Shape.rowMajor_val_five, Shape.rowMajor_val_two]
    show h.val * 192 + w.val = ((((0 * 1 + 0) * 1 + 0) * 192 + h.val) * 192 + w.val)
    simp only [Nat.zero_mul, Nat.zero_add, Nat.mul_one, Nat.add_zero])

/-- A plane loaded from the staged stack through the unit-stride window `[1, 1, 1, 194, 194]` at offsets
    `(0, c, e, 0, 0)` reads, at `(0, 0, 0, p, q)`, the stack at `(0, c, e, p, q)`. -/
theorem ld_plane_apply {Val : EltTy → Type} {e' : EltTy} (X : S1x2x18x194x194.Idx → Val e') (off : Fin 5 → Nat)
    (inb : ∀ a, off a + S1x1x1x194x194.size a ≤ S1x2x18x194x194.size a) (c : Fin 2) (e : Fin 18)
    (hoff : off = ![0, c.val, e.val, 0, 0]) (p q : Fin 194) :
    View.ld X (Rect.unit (s := S1x2x18x194x194) off S1x1x1x194x194.size inb)
        (ix5 (0 : Fin 1) (0 : Fin 1) (0 : Fin 1) p q)
      = X (ix5 (0 : Fin 1) c e p q) := by
  subst hoff
  show X _ = X _
  refine congrArg X (funext fun a => Fin.ext ?_)
  match a with
  | ⟨0, _⟩ => show 0 + 1 * 0 = 0; rfl
  | ⟨1, _⟩ => show c.val + 1 * 0 = c.val; omega
  | ⟨2, _⟩ => show e.val + 1 * 0 = e.val; omega
  | ⟨3, _⟩ => show 0 + 1 * p.val = p.val; omega
  | ⟨4, _⟩ => show 0 + 1 * q.val = q.val; omega

end Layout

/-! ## One channel's product -/

/-- The product the body forms for one channel: the plane sliced at `off2` times filter channel `off3 0`
    (sliced out of the stack of 54 and cast to a matrix), at pixel `(h, w)`, is the plane at the shifted pixel
    times that channel's filter at the pixel. -/
theorem tap_apply (pl : FVec Ideal S194x194 .f32) (v1 : FVec Ideal S54x192x192 .f32)
    (off2 : Fin 2 → Nat) (off3 : Fin 3 → Nat) (hs : S194x194.Slices off2 S192x192)
    (hs3 : S54x192x192.Slices off3 S1x192x192) (hc : S1x192x192.ShapeCasts S192x192) (h w : Fin 192)
    (p q : Fin 194) (k : Fin 54) (hp : p.val = off2 0 + h.val) (hq : q.val = off2 1 + w.val)
    (hk : k.val = off3 0) (e1 : off3 1 = 0) (e2 : off3 2 = 0) :
    mulf (extractStridedSlice S192x192 off2 pl hs)
        (shapeCast S192x192 (extractStridedSlice S1x192x192 off3 v1 hs3) hc) (ix2 h w)
      = pl (ix2 p q) * v1 (ix3 k h w) := by
  refine (mulf_apply _ _ _).trans ?_
  refine congrArg₂ (· * ·) (extractStridedSlice_apply off2 pl hs (ix2 h w) (ix2 p q) fun a => ?_)
    ((shapeCast_1ab_ab_apply _ hc h w).trans
      (extractStridedSlice_apply off3 v1 hs3 (ix3 (0 : Fin 1) h w) (ix3 k h w) fun a => ?_))
  · match a with
    | ⟨0, _⟩ => exact hp
    | ⟨1, _⟩ => exact hq
  · match a with
    | ⟨0, _⟩ => exact hk
    | ⟨1, _⟩ => show h.val = off3 1 + h.val; rw [e1, Nat.zero_add]
    | ⟨2, _⟩ => show w.val = off3 2 + w.val; rw [e2, Nat.zero_add]

/-! ## The running sum -/

section Sum
variable (x0 : Vec Ideal S1x2x18x194x194 .f32) (x1 : Vec Ideal S1x54x1x192x192 .f32) (d : Fin 16) (h w : Fin 192)

/-- Depth `d + m` of the padded stack, `m` one of the three depth offsets. -/
abbrev dep (d : Fin 16) (m : Fin 3) : Fin 18 := ⟨d.val + m.val, by have := d.isLt; have := m.isLt; omega⟩

/-- `pl` is candidate `c` of the staged stack at depth `d + m`, as a `[194, 194]` matrix. -/
abbrev IsPlane (pl : FVec Ideal S194x194 .f32) (c : Fin 2) (m : Fin 3) : Prop :=
  ∀ p q : Fin 194, pl (ix2 p q) = x0 (ix5 (0 : Fin 1) c (dep d m) p q)

/-- `v` is that plane as the body loads it, a `[1, 1, 1, 194, 194]` block. -/
abbrev IsLoaded (v : Vec Ideal S1x1x1x194x194 .f32) (c : Fin 2) (m : Fin 3) : Prop :=
  ∀ p q : Fin 194, v (ix5 (0 : Fin 1) (0 : Fin 1) (0 : Fin 1) p q) = x0 (ix5 (0 : Fin 1) c (dep d m) p q)

/-- `v1` is the staged filter block as a stack of 54 matrices. -/
abbrev IsFilt (v1 : FVec Ideal S54x192x192 .f32) : Prop :=
  ∀ (k : Fin 54) (h w : Fin 192), v1 (ix3 k h w) = x1 (ix5 (0 : Fin 1) k (0 : Fin 1) h w)

/-- The zero word the body starts from plus the first `n` channel products, in channel order. -/
def psum (n : Nat) (hn : n ≤ 54) : EReal :=
  Ideal.ofBits .f32 0x00000000#32 + ∑ j : Fin n, blkTerm x0 x1 d h w (Fin.castLE hn j)

/-- No product yet: the start word. -/
theorem psum_zero : psum x0 x1 d h w 0 (Nat.zero_le 54) = Ideal.ofBits .f32 0x00000000#32 := by
  unfold psum
  rw [Fin.sum_univ_zero, add_zero]

/-- One more product: addition of extended reals is associative. -/
theorem psum_succ (n : Nat) (hn : n < 54) :
    psum x0 x1 d h w (n + 1) hn = psum x0 x1 d h w n (Nat.le_of_lt hn) + blkTerm x0 x1 d h w ⟨n, hn⟩ := by
  unfold psum
  rw [Fin.sum_univ_castSucc, ← add_assoc]
  rfl

/-- All 54: the sum the specification names. -/
theorem psum_all : psum x0 x1 d h w 54 (Nat.le_refl 54)
    = Ideal.ofBits .f32 0x00000000#32 + ∑ k : Fin 54, blkTerm x0 x1 d h w k := rfl

/-- Channel `n`'s product as the body forms it — the plane sliced at `((n % 9) / 3, n % 3)` times channel `n` of
    the filter stack — is `blkTerm` at `n`, when the plane is candidate `n / 27` of the staged stack at depth
    `d + (n % 27) / 9` and the filter stack is the staged filter block. -/
theorem tap_blk (pl : FVec Ideal S194x194 .f32) (v1 : FVec Ideal S54x192x192 .f32) (c : Fin 2) (m : Fin 3)
    (hpl : IsPlane x0 d pl c m) (hv1 : IsFilt x1 v1)
    (n : Nat) (hn : n < 54) (ec : n / 27 = c.val) (em : n % 27 / 9 = m.val)
    (hs : S194x194.Slices ![n % 9 / 3, n % 3] S192x192) (hs3 : S54x192x192.Slices ![n, 0, 0] S1x192x192)
    (hc : S1x192x192.ShapeCasts S192x192) :
    mulf (extractStridedSlice S192x192 ![n % 9 / 3, n % 3] pl hs)
        (shapeCast S192x192 (extractStridedSlice S1x192x192 ![n, 0, 0] v1 hs3) hc) (ix2 h w)
      = blkTerm x0 x1 d h w ⟨n, hn⟩ := by
  refine (tap_apply pl v1 _ _ hs hs3 hc h w
    ⟨h.val + n % 9 / 3, by have := h.isLt; omega⟩ ⟨w.val + n % 3, by have := w.isLt; omega⟩ ⟨n, hn⟩
    (Nat.add_comm _ _) (Nat.add_comm _ _) rfl rfl rfl).trans ?_
  rw [hpl, hv1]
  obtain ⟨cv, hcv⟩ := c
  obtain ⟨mv, hmv⟩ := m
  dsimp only at ec em
  subst ec em
  rfl

/-- Two accumulators added: a running sum of `n` products plus product `n` is the running sum of `n + 1`. -/
theorem join_blk (a b : FVec Ideal S192x192 .f32) (n : Nat) (hn : n < 54)
    (ha : a (ix2 h w) = psum x0 x1 d h w n (Nat.le_of_lt hn)) (hb : b (ix2 h w) = blkTerm x0 x1 d h w ⟨n, hn⟩) :
    addf a b (ix2 h w) = psum x0 x1 d h w (n + 1) hn :=
  (addf_apply a b _).trans ((congrArg₂ (· + ·) ha hb).trans (psum_succ x0 x1 d h w n hn).symm)

/-- One step of the body's accumulation: the running sum of `n` products plus channel `n`'s product. -/
theorem step_blk (acc : FVec Ideal S192x192 .f32) (n : Nat) (hn : n < 54)
    (hacc : acc (ix2 h w) = psum x0 x1 d h w n (Nat.le_of_lt hn))
    (pl : FVec Ideal S194x194 .f32) (v1 : FVec Ideal S54x192x192 .f32) (c : Fin 2) (m : Fin 3)
    (hpl : IsPlane x0 d pl c m) (hv1 : IsFilt x1 v1) (ec : n / 27 = c.val) (em : n % 27 / 9 = m.val)
    (hs : S194x194.Slices ![n % 9 / 3, n % 3] S192x192) (hs3 : S54x192x192.Slices ![n, 0, 0] S1x192x192)
    (hc : S1x192x192.ShapeCasts S192x192) :
    addf acc (mulf (extractStridedSlice S192x192 ![n % 9 / 3, n % 3] pl hs)
        (shapeCast S192x192 (extractStridedSlice S1x192x192 ![n, 0, 0] v1 hs3) hc)) (ix2 h w)
      = psum x0 x1 d h w (n + 1) hn :=
  join_blk x0 x1 d h w acc _ n hn hacc (tap_blk x0 x1 d h w pl v1 c m hpl hv1 n hn ec em hs hs3 hc)

end Sum

end Cert.DynFilter.Body

end
-- ==== Proof.KernelPointParts.lean ====
/-
  The kernel body's arithmetic, part by part, read at one pixel.

  The body is printed in five parts whose values are the payloads `k0_pay1` … `k0_pay14`: the filter block cast to a
  stack of 54 matrices, each loaded plane cast to a matrix, and the accumulator carried from part to part. Each
  accumulator payload adds some consecutive channels' products to what it is handed; read at pixel `(h, w)` it
  takes the running sum `psum n` to `psum n'`. Three products are formed in one part and added in the next
  (channels 7, 17 and 45): those payloads are one `blkTerm` each.
-/
import proofs.«105764_j65369402245158_1_alg».proof.Proof.KernelPointTaps
import proofs.«105764_j65369402245158_1_alg».proof.Proof.Gen.KernelIdeal.Skeleton

set_option maxRecDepth 16384

noncomputable section

namespace Cert.DynFilter.Body

open Cert.KernelIdeal Cert.KernelIdeal.Gen Idealize.ShloMosaic Idealize.ShloMosaic.ValueIdx

/-! ## The body's arithmetic, part by part, at pixel `(h, w)` -/

section Parts
variable (x0 : Vec Ideal S1x2x18x194x194 .f32) (x1 : Vec Ideal S1x54x1x192x192 .f32) (d : Fin 16) (h w : Fin 192)

/-- The staged filter block cast to `[54, 192, 192]` is the stack of its 54 channels. -/
theorem filt_apply : IsFilt x1 (k0_pay2 x1) := fun k h w => by
  unfold k0_pay2
  exact filt_cast_apply x1 _ k h w

/-- A loaded plane cast to a matrix (the two casts of the body's first part). -/
theorem plane3_apply (c : Fin 2) (m : Fin 3) (v : Vec Ideal S1x1x1x194x194 .f32) (hv : IsLoaded x0 d v c m) :
    IsPlane x0 d (k0_pay3 v) c m := fun p q => by
  unfold k0_pay3
  exact (plane_cast_apply v _ _ p q).trans (hv p q)

/-- The same two casts as the second part spells them. -/
theorem plane6_apply (c : Fin 2) (m : Fin 3) (v : Vec Ideal S1x1x1x194x194 .f32) (hv : IsLoaded x0 d v c m) :
    IsPlane x0 d (k0_pay6 v) c m := fun p q => by
  unfold k0_pay6
  exact (plane_cast_apply v _ _ p q).trans (hv p q)

/-- The same two casts as the fifth part spells them. -/
theorem plane13_apply (c : Fin 2) (m : Fin 3) (v : Vec Ideal S1x1x1x194x194 .f32) (hv : IsLoaded x0 d v c m) :
    IsPlane x0 d (k0_pay13 v) c m := fun p q => by
  unfold k0_pay13
  exact (plane_cast_apply v _ _ p q).trans (hv p q)

/-- The zero start value and channels 0 to 6: candidate 0 at depth `d`. -/
theorem pay4_apply (v5 : Vec Ideal S1x1x1x194x194 .f32) (hv5 : IsLoaded x0 d v5 0 0) :
    k0_pay4 x1 v5 (ix2 h w) = psum x0 x1 d h w 7 (by omega) := by
  have hP := plane3_apply x0 d 0 0 v5 hv5
  have hV := filt_apply x1
  unfold k0_pay4
  refine step_blk x0 x1 d h w _ 6 (by omega) ?_ (k0_pay3 v5) (k0_pay2 x1) 0 0 hP hV rfl rfl _ _ _
  refine step_blk x0 x1 d h w _ 5 (by omega) ?_ (k0_pay3 v5) (k0_pay2 x1) 0 0 hP hV rfl rfl _ _ _
  refine step_blk x0 x1 d h w _ 4 (by omega) ?_ (k0_pay3 v5) (k0_pay2 x1) 0 0 hP hV rfl rfl _ _ _
  refine step_blk x0 x1 d h w _ 3 (by omega) ?_ (k0_pay3 v5) (k0_pay2 x1) 0 0 hP hV rfl rfl _ _ _
  refine step_blk x0 x1 d h w _ 2 (by omega) ?_ (k0_pay3 v5) (k0_pay2 x1) 0 0 hP hV rfl rfl _ _ _
  refine step_blk x0 x1 d h w _ 1 (by omega) ?_ (k0_pay3 v5) (k0_pay2 x1) 0 0 hP hV rfl rfl _ _ _
  refine step_blk x0 x1 d h w _ 0 (by omega) ?_ (k0_pay3 v5) (k0_pay2 x1) 0 0 hP hV rfl rfl _ _ _
  exact (psum_zero x0 x1 d h w).symm

/-- Channel 7's product alone (a part boundary falls between this product and its addition). -/
theorem pay5_apply (v5 : Vec Ideal S1x1x1x194x194 .f32) (hv5 : IsLoaded x0 d v5 0 0) :
    k0_pay5 x1 v5 (ix2 h w) = blkTerm x0 x1 d h w ⟨7, by omega⟩ := by
  unfold k0_pay5
  exact tap_blk x0 x1 d h w (k0_pay3 v5) (k0_pay2 x1) 0 0 (plane3_apply x0 d 0 0 v5 hv5) (filt_apply x1)
    7 (by omega) rfl rfl _ _ _

/-- Channels 7 to 16: the last two of candidate 0 at depth `d`, then eight at depth `d + 1`. -/
theorem pay7_apply (v1 : FVec Ideal S54x192x192 .f32) (hv1 : IsFilt x1 v1)
    (v7 : FVec Ideal S194x194 .f32) (hv7 : IsPlane x0 d v7 0 0) (v42 v46 : FVec Ideal S192x192 .f32)
    (h42 : v42 (ix2 h w) = psum x0 x1 d h w 7 (by omega)) (h46 : v46 (ix2 h w) = blkTerm x0 x1 d h w ⟨7, by omega⟩)
    (v55 : Vec Ideal S1x1x1x194x194 .f32) (hv55 : IsLoaded x0 d v55 0 1) :
    k0_pay7 v1 v7 v42 v46 v55 (ix2 h w) = psum x0 x1 d h w 17 (by omega) := by
  have hP := plane6_apply x0 d 0 1 v55 hv55
  unfold k0_pay7
  refine step_blk x0 x1 d h w _ 16 (by omega) ?_ (k0_pay6 v55) v1 0 1 hP hv1 rfl rfl _ _ _
  refine step_blk x0 x1 d h w _ 15 (by omega) ?_ (k0_pay6 v55) v1 0 1 hP hv1 rfl rfl _ _ _
  refine step_blk x0 x1 d h w _ 14 (by omega) ?_ (k0_pay6 v55) v1 0 1 hP hv1 rfl rfl _ _ _
  refine step_blk x0 x1 d h w _ 13 (by omega) ?_ (k0_pay6 v55) v1 0 1 hP hv1 rfl rfl _ _ _
  refine step_blk x0 x1 d h w _ 12 (by omega) ?_ (k0_pay6 v55) v1 0 1 hP hv1 rfl rfl _ _ _
  refine step_blk x0 x1 d h w _ 11 (by omega) ?_ (k0_pay6 v55) v1 0 1 hP hv1 rfl rfl _ _ _
  refine step_blk x0 x1 d h w _ 10 (by omega) ?_ (k0_pay6 v55) v1 0 1 hP hv1 rfl rfl _ _ _
  refine step_blk x0 x1 d h w _ 9 (by omega) ?_ (k0_pay6 v55) v1 0 1 hP hv1 rfl rfl _ _ _
  refine step_blk x0 x1 d h w _ 8 (by omega) ?_ v7 v1 0 0 hv7 hv1 rfl rfl _ _ _
  exact join_blk x0 x1 d h w v42 v46 7 (by omega) h42 h46

/-- Channel 17's product alone. -/
theorem pay8_apply (v1 : FVec Ideal S54x192x192 .f32) (hv1 : IsFilt x1 v1)
    (v55 : Vec Ideal S1x1x1x194x194 .f32) (hv55 : IsLoaded x0 d v55 0 1) :
    k0_pay8 v1 v55 (ix2 h w) = blkTerm x0 x1 d h w ⟨17, by omega⟩ := by
  unfold k0_pay8
  exact tap_blk x0 x1 d h w (k0_pay6 v55) v1 0 1 (plane6_apply x0 d 0 1 v55 hv55) hv1 17 (by omega) rfl rfl _ _ _

/-- Channels 17 to 26: candidate 0 at depth `d + 2`. -/
theorem pay9_apply (v1 : FVec Ideal S54x192x192 .f32) (hv1 : IsFilt x1 v1) (v97 v101 : FVec Ideal S192x192 .f32)
    (h97 : v97 (ix2 h w) = psum x0 x1 d h w 17 (by omega))
    (h101 : v101 (ix2 h w) = blkTerm x0 x1 d h w ⟨17, by omega⟩)
    (v105 : Vec Ideal S1x1x1x194x194 .f32) (hv105 : IsLoaded x0 d v105 0 2) :
    k0_pay9 v1 v97 v101 v105 (ix2 h w) = psum x0 x1 d h w 27 (by omega) := by
  have hP := plane3_apply x0 d 0 2 v105 hv105
  unfold k0_pay9
  refine step_blk x0 x1 d h w _ 26 (by omega) ?_ (k0_pay3 v105) v1 0 2 hP hv1 rfl rfl _ _ _
  refine step_blk x0 x1 d h w _ 25 (by omega) ?_ (k0_pay3 v105) v1 0 2 hP hv1 rfl rfl _ _ _
  refine step_blk x0 x1 d h w _ 24 (by omega) ?_ (k0_pay3 v105) v1 0 2 hP hv1 rfl rfl _ _ _
  refine step_blk x0 x1 d h w _ 23 (by omega) ?_ (k0_pay3 v105) v1 0 2 hP hv1 rfl rfl _ _ _
  refine step_blk x0 x1 d h w _ 22 (by omega) ?_ (k0_pay3 v105) v1 0 2 hP hv1 rfl rfl _ _ _
  refine step_blk x0 x1 d h w _ 21 (by omega) ?_ (k0_pay3 v105) v1 0 2 hP hv1 rfl rfl _ _ _
  refine step_blk x0 x1 d h w _ 20 (by omega) ?_ (k0_pay3 v105) v1 0 2 hP hv1 rfl rfl _ _ _
  refine step_blk x0 x1 d h w _ 19 (by omega) ?_ (k0_pay3 v105) v1 0 2 hP hv1 rfl rfl _ _ _
  refine step_blk x0 x1 d h w _ 18 (by omega) ?_ (k0_pay3 v105) v1 0 2 hP hv1 rfl rfl _ _ _
  exact join_blk x0 x1 d h w v97 v101 17 (by omega) h97 h101

/-- Channels 27 to 35: candidate 1 at depth `d`. -/
theorem pay10_apply (v1 : FVec Ideal S54x192x192 .f32) (hv1 : IsFilt x1 v1) (v152 : FVec Ideal S192x192 .f32)
    (h152 : v152 (ix2 h w) = psum x0 x1 d h w 27 (by omega))
    (v155 : Vec Ideal S1x1x1x194x194 .f32) (hv155 : IsLoaded x0 d v155 1 0) :
    k0_pay10 v1 v152 v155 (ix2 h w) = psum x0 x1 d h w 36 (by omega) := by
  have hP := plane3_apply x0 d 1 0 v155 hv155
  unfold k0_pay10
  refine step_blk x0 x1 d h w _ 35 (by omega) ?_ (k0_pay3 v155) v1 1 0 hP hv1 rfl rfl _ _ _
  refine step_blk x0 x1 d h w _ 34 (by omega) ?_ (k0_pay3 v155) v1 1 0 hP hv1 rfl rfl _ _ _
  refine step_blk x0 x1 d h w _ 33 (by omega) ?_ (k0_pay3 v155) v1 1 0 hP hv1 rfl rfl _ _ _
  refine step_blk x0 x1 d h w _ 32 (by omega) ?_ (k0_pay3 v155) v1 1 0 hP hv1 rfl rfl _ _ _
  refine step_blk x0 x1 d h w _ 31 (by omega) ?_ (k0_pay3 v155) v1 1 0 hP hv1 rfl rfl _ _ _
  refine step_blk x0 x1 d h w _ 30 (by omega) ?_ (k0_pay3 v155) v1 1 0 hP hv1 rfl rfl _ _ _
  refine step_blk x0 x1 d h w _ 29 (by omega) ?_ (k0_pay3 v155) v1 1 0 hP hv1 rfl rfl _ _ _
  refine step_blk x0 x1 d h w _ 28 (by omega) ?_ (k0_pay3 v155) v1 1 0 hP hv1 rfl rfl _ _ _
  refine step_blk x0 x1 d h w _ 27 (by omega) ?_ (k0_pay3 v155) v1 1 0 hP hv1 rfl rfl _ _ _
  exact h152

/-- Channels 36 to 44: candidate 1 at depth `d + 1`; the plane arrives with the first of its two casts done. -/
theorem pay12_apply (v1 : FVec Ideal S54x192x192 .f32) (hv1 : IsFilt x1 v1) (v202 : FVec Ideal S192x192 .f32)
    (h202 : v202 (ix2 h w) = psum x0 x1 d h w 36 (by omega))
    (v205 : Vec Ideal S1x1x1x194x194 .f32) (hv205 : IsLoaded x0 d v205 1 1) :
    k0_pay12 v1 v202 (k0_pay11 v205) (ix2 h w) = psum x0 x1 d h w 45 (by omega) := by
  have hP := plane3_apply x0 d 1 1 v205 hv205
  unfold k0_pay12 k0_pay11
  refine step_blk x0 x1 d h w _ 44 (by omega) ?_ (k0_pay3 v205) v1 1 1 hP hv1 rfl rfl _ _ _
  refine step_blk x0 x1 d h w _ 43 (by omega) ?_ (k0_pay3 v205) v1 1 1 hP hv1 rfl rfl _ _ _
  refine step_blk x0 x1 d h w _ 42 (by omega) ?_ (k0_pay3 v205) v1 1 1 hP hv1 rfl rfl _ _ _
  refine step_blk x0 x1 d h w _ 41 (by omega) ?_ (k0_pay3 v205) v1 1 1 hP hv1 rfl rfl _ _ _
  refine step_blk x0 x1 d h w _ 40 (by omega) ?_ (k0_pay3 v205) v1 1 1 hP hv1 rfl rfl _ _ _
  refine step_blk x0 x1 d h w _ 39 (by omega) ?_ (k0_pay3 v205) v1 1 1 hP hv1 rfl rfl _ _ _
  refine step_blk x0 x1 d h w _ 38 (by omega) ?_ (k0_pay3 v205) v1 1 1 hP hv1 rfl rfl _ _ _
  refine step_blk x0 x1 d h w _ 37 (by omega) ?_ (k0_pay3 v205) v1 1 1 hP hv1 rfl rfl _ _ _
  refine step_blk x0 x1 d h w _ 36 (by omega) ?_ (k0_pay3 v205) v1 1 1 hP hv1 rfl rfl _ _ _
  exact h202

/-- Channel 45's product alone. -/
theorem pay14_apply (v1 : FVec Ideal S54x192x192 .f32) (hv1 : IsFilt x1 v1)
    (v255 : Vec Ideal S1x1x1x194x194 .f32) (hv255 : IsLoaded x0 d v255 1 2) :
    k0_pay14 v1 v255 (ix2 h w) = blkTerm x0 x1 d h w ⟨45, by omega⟩ := by
  unfold k0_pay14
  exact tap_blk x0 x1 d h w (k0_pay13 v255) v1 1 2 (plane13_apply x0 d 1 2 v255 hv255) hv1 45 (by omega) rfl rfl _ _ _

/-- Channels 45 to 53, candidate 1 at depth `d + 2`, and the cast to the output block's shape. -/
theorem pay1_apply (v1 : FVec Ideal S54x192x192 .f32) (hv1 : IsFilt x1 v1) (v252 : FVec Ideal S192x192 .f32)
    (h252 : v252 (ix2 h w) = psum x0 x1 d h w 45 (by omega))
    (v257 : FVec Ideal S194x194 .f32) (hv257 : IsPlane x0 d v257 1 2) (v261 : FVec Ideal S192x192 .f32)
    (h261 : v261 (ix2 h w) = blkTerm x0 x1 d h w ⟨45, by omega⟩) :
    k0_pay1 v1 v252 v257 v261 (ix5 (0 : Fin 1) (0 : Fin 1) (0 : Fin 1) h w)
      = psum x0 x1 d h w 54 (Nat.le_refl 54) := by
  unfold k0_pay1
  refine (out_cast_apply _ _ h w).trans ?_
  refine step_blk x0 x1 d h w _ 53 (by omega) ?_ v257 v1 1 2 hv257 hv1 rfl rfl _ _ _
  refine step_blk x0 x1 d h w _ 52 (by omega) ?_ v257 v1 1 2 hv257 hv1 rfl rfl _ _ _
  refine step_blk x0 x1 d h w _ 51 (by omega) ?_ v257 v1 1 2 hv257 hv1 rfl rfl _ _ _
  refine step_blk x0 x1 d h w _ 50 (by omega) ?_ v257 v1 1 2 hv257 hv1 rfl rfl _ _ _
  refine step_blk x0 x1 d h w _ 49 (by omega) ?_ v257 v1 1 2 hv257 hv1 rfl rfl _ _ _
  refine step_blk x0 x1 d h w _ 48 (by omega) ?_ v257 v1 1 2 hv257 hv1 rfl rfl _ _ _
  refine step_blk x0 x1 d h w _ 47 (by omega) ?_ v257 v1 1 2 hv257 hv1 rfl rfl _ _ _
  refine step_blk x0 x1 d h w _ 46 (by omega) ?_ v257 v1 1 2 hv257 hv1 rfl rfl _ _ _
  exact join_blk x0 x1 d h w v252 v261 45 (by omega) h252 h261

end Parts

end Cert.DynFilter.Body

end
-- ==== Proof.KernelPointOut.lean ====
/-
  What the kernel body leaves in its output block, as a value of the two staged blocks.

  The run of the body (the generated frame certificate's) ends with one store that covers the output's staging
  buffer; its payload is the body's arithmetic applied to what the loads read: the filter block whole, and six
  planes of the staged padded stack through unit-stride windows `[1, 1, 1, 194, 194]` at the offsets the body computes
  from the grid's second coordinate. This module names that value (`bodyVal`) and proves the staging buffer holds it,
  for any float values.
-/
import proofs.«105764_j65369402245158_1_alg».proof.Proof.Gen.KernelIdeal.Frame
import Idealize.ShloMosaic.Lib.Pipeline.Value

set_option maxRecDepth 16384

noncomputable section

namespace Cert.DynFilter.Body

open Cert.KernelIdeal Cert.KernelIdeal.Gen Idealize.ShloMosaic Idealize.ShloMosaic.TcCoe Idealize.SL.Sem
open Idealize.ShloMosaic.Tactic

variable {F : FTy → Type} [FloatOps F]

section Value
variable (i : grid0.Coords) (x0 : Vec F S1x2x18x194x194 .f32) (x1 : Vec F S1x54x1x192x192 .f32)

/-- The three planes of candidate 0 the body loads from the staged stack: unit-stride windows `[1, 1, 1, 194, 194]`
    at depth `d`, `d + 1`, `d + 2` (`d` the grid's second coordinate). -/
abbrev ldP0 : Vec F S1x1x1x194x194 .f32 :=
  View.ld x0 (Rect.unit (s := S1x2x18x194x194) (k0_off1 i 0#32) S1x1x1x194x194.size (k0_off1_inb i 0))
abbrev ldP1 : Vec F S1x1x1x194x194 .f32 :=
  View.ld x0 (Rect.unit (s := S1x2x18x194x194) (k0_off1 i 1#32) S1x1x1x194x194.size (k0_off1_inb i 1))
abbrev ldP2 : Vec F S1x1x1x194x194 .f32 :=
  View.ld x0 (Rect.unit (s := S1x2x18x194x194) (k0_off1 i 2#32) S1x1x1x194x194.size (k0_off1_inb i 2))
/-- The three planes of candidate 1. -/
abbrev ldQ0 : Vec F S1x1x1x194x194 .f32 :=
  View.ld x0 (Rect.unit (s := S1x2x18x194x194) (k0_off2 i 0#32) S1x1x1x194x194.size (k0_off2_inb i 0))
abbrev ldQ1 : Vec F S1x1x1x194x194 .f32 :=
  View.ld x0 (Rect.unit (s := S1x2x18x194x194) (k0_off2 i 1#32) S1x1x1x194x194.size (k0_off2_inb i 1))
abbrev ldQ2 : Vec F S1x1x1x194x194 .f32 :=
  View.ld x0 (Rect.unit (s := S1x2x18x194x194) (k0_off2 i 2#32) S1x1x1x194x194.size (k0_off2_inb i 2))

/-- The accumulator after the body's second part: the start value and channels 0 to 16. -/
def acc17 : FVec F S192x192 .f32 :=
  k0_pay7 (k0_pay2 x1) (k0_pay3 (ldP0 i x0)) (k0_pay4 x1 (ldP0 i x0)) (k0_pay5 x1 (ldP0 i x0)) (ldP1 i x0)
/-- After the third part: channels up to 26. -/
def acc27 : FVec F S192x192 .f32 :=
  k0_pay9 (k0_pay2 x1) (acc17 i x0 x1) (k0_pay8 (k0_pay2 x1) (ldP1 i x0)) (ldP2 i x0)
/-- After the fourth part: channels up to 35. -/
def acc36 : FVec F S192x192 .f32 := k0_pay10 (k0_pay2 x1) (acc27 i x0 x1) (ldQ0 i x0)
/-- After the fifth part's first nine channels: up to 44. -/
def acc45 : FVec F S192x192 .f32 := k0_pay12 (k0_pay2 x1) (acc36 i x0 x1) (k0_pay11 (ldQ1 i x0))
/-- What the body stores: all 54 channels, cast to the output block's shape. -/
def bodyVal : Vec F S1x1x1x192x192 .f32 :=
  k0_pay1 (k0_pay2 x1) (acc45 i x0 x1) (k0_pay13 (ldQ2 i x0)) (k0_pay14 (k0_pay2 x1) (ldQ2 i x0))

end Value

theorem hz5 : (![0, 0, 0, 0, 0] : Fin 5 → Nat) = fun _ => 0 := funext fun a => by fin_cases a <;> rfl

/-- What the run leaves in the output's staging buffer is the body's value of the two staged blocks: its one store
    covers the buffer, and its loads read the staged blocks (the filter block whole, the stack through the six
    windows). -/
theorem out_eq (c : Dev nD) (i : grid0.Coords)
    (arg2 : Memref sig .tc .vmem S1x2x18x194x194 .f32) (harg2 : arg2.IsWhole)
    (arg3 : Memref sig .tc .vmem S1x54x1x192x192 .f32) (harg3 : arg3.IsWhole)
    (arg4 : Memref sig .tc .vmem S1x1x1x192x192 .f32) (harg4 : arg4.IsWhole)
    (x0 : Vec F S1x2x18x194x194 .f32) (x1 : Vec F S1x54x1x192x192 .f32) :
    out0_A_2 (F := F) c i arg2 harg2 arg3 harg3 arg4 harg4 x0 x1 = bodyVal i x0 x1 := by
  unfold out0_A_2
  rw [View.read_writes_eq_canon _ _ _ (cover0_A_2 c i arg2 harg2 arg3 harg3 arg4 harg4 x0 x1)]
  unfold kernelRun0_A
  dsimp only
  sl_unfold_run_names
  rw [View.canon_unit_zero hz5]
  simp only [View.readAt_eq_ld, harg2.read_unread, harg3.read_unread, View.ld_unit_zero (S := S1x54x1x192x192) hz5]
  rfl

end Cert.DynFilter.Body

end
-- ==== Proof.KernelPoint.lean ====
/-
  What the kernel body leaves in its output block, read at one pixel.

  At grid point `(b, d)` the body loads the whole filter block (54 channels at depth `d`) and six planes of the
  staged padded stack — candidate `c` at depths `d`, `d + 1`, `d + 2` —, and adds the 54 products
  `plane (h + dj, w + dk) · filter k (h, w)` to a zero start value one after the other, in channel order
  `k = 27 c + 9 di + 3 dj + dk`. So the stored value at `(h, w)` is the zero word plus the sum of `blkTerm`.

  The staging buffer holds the body's value of the two staged blocks (`Body.out_eq`); each loaded plane is the
  staged stack at its candidate and depth (the load offsets in closed form); and part by part the accumulator at
  `(h, w)` is the running sum of the channels so far (`Body.pay4_apply` … `Body.pay1_apply`), all 54 at the end.
-/
import proofs.«105764_j65369402245158_1_alg».proof.Proof.Spec
import proofs.«105764_j65369402245158_1_alg».proof.Proof.Gen.KernelIdeal.Frame
import proofs.«105764_j65369402245158_1_alg».proof.Proof.KernelPointParts
import proofs.«105764_j65369402245158_1_alg».proof.Proof.KernelPointOut
import Idealize.ShloMosaic.Lib.Pipeline.Value
import Idealize.ShloMosaic.Lib.ValueIdx
import Idealize.ShloMosaic.Lib.ValueLayout

set_option maxRecDepth 16384

noncomputable section

namespace Cert.DynFilter

open Cert.KernelIdeal Cert.KernelIdeal.Gen Idealize.ShloMosaic Idealize.ShloMosaic.TcCoe Idealize.ShloMosaic.ValueIdx Idealize.SL.Sem

/-- The body's result at pixel `(h, w)`, from the two staged blocks `x0` (padded stack) and `x1` (filters). -/
theorem body_apply (c : Dev nD) (i : grid0.Coords)
    (arg2 : Memref sig .tc .vmem S1x2x18x194x194 .f32) (harg2 : arg2.IsWhole)
    (arg3 : Memref sig .tc .vmem S1x54x1x192x192 .f32) (harg3 : arg3.IsWhole)
    (arg4 : Memref sig .tc .vmem S1x1x1x192x192 .f32) (harg4 : arg4.IsWhole)
    (x0 : Vec Ideal S1x2x18x194x194 .f32) (x1 : Vec Ideal S1x54x1x192x192 .f32) (h w : Fin 192) :
    out0_A_2 (F := Ideal) c i arg2 harg2 arg3 harg3 arg4 harg4 x0 x1
        (ix5 (n0 := 1) (n1 := 1) (n2 := 1) (n3 := 192) (n4 := 192) (0 : Fin 1) (0 : Fin 1) (0 : Fin 1) h w)
      = Ideal.ofBits .f32 0x00000000#32 + ∑ k : Fin 54, blkTerm x0 x1 ⟨(i 1).val, (i 1).isLt⟩ h w k := by
  rw [Body.out_eq (F := Ideal) c i arg2 harg2 arg3 harg3 arg4 harg4 x0 x1]
  -- the six loaded planes are the staged stack at candidate 0 / 1 and depths d, d + 1, d + 2
  have hP0 : Body.IsLoaded x0 ⟨(i 1).val, (i 1).isLt⟩ (Body.ldP0 i x0) 0 0 :=
    fun p q => Body.ld_plane_apply x0 _ _ 0 _ (k0_off1_eq i 0) p q
  have hP1 : Body.IsLoaded x0 ⟨(i 1).val, (i 1).isLt⟩ (Body.ldP1 i x0) 0 1 :=
    fun p q => Body.ld_plane_apply x0 _ _ 0 _ (k0_off1_eq i 1) p q
  have hP2 : Body.IsLoaded x0 ⟨(i 1).val, (i 1).isLt⟩ (Body.ldP2 i x0) 0 2 :=
    fun p q => Body.ld_plane_apply x0 _ _ 0 _ (k0_off1_eq i 2) p q
  have hQ0 : Body.IsLoaded x0 ⟨(i 1).val, (i 1).isLt⟩ (Body.ldQ0 i x0) 1 0 :=
    fun p q => Body.ld_plane_apply x0 _ _ 1 _ (k0_off2_eq i 0) p q
  have hQ1 : Body.IsLoaded x0 ⟨(i 1).val, (i 1).isLt⟩ (Body.ldQ1 i x0) 1 1 :=
    fun p q => Body.ld_plane_apply x0 _ _ 1 _ (k0_off2_eq i 1) p q
  have hQ2 : Body.IsLoaded x0 ⟨(i 1).val, (i 1).isLt⟩ (Body.ldQ2 i x0) 1 2 :=
    fun p q => Body.ld_plane_apply x0 _ _ 1 _ (k0_off2_eq i 2) p q
  have hV := Body.filt_apply x1
  -- the accumulator after each part
  have h17 := Body.pay7_apply x0 x1 _ h w (k0_pay2 x1) hV (k0_pay3 (Body.ldP0 i x0))
    (Body.plane3_apply x0 _ 0 0 _ hP0) _ _ (Body.pay4_apply x0 x1 _ h w _ hP0) (Body.pay5_apply x0 x1 _ h w _ hP0)
    (Body.ldP1 i x0) hP1
  have h27 := Body.pay9_apply x0 x1 _ h w (k0_pay2 x1) hV _ _ h17 (Body.pay8_apply x0 x1 _ h w _ hV _ hP1)
    (Body.ldP2 i x0) hP2
  have h36 := Body.pay10_apply x0 x1 _ h w (k0_pay2 x1) hV _ h27 (Body.ldQ0 i x0) hQ0
  have h45 := Body.pay12_apply x0 x1 _ h w (k0_pay2 x1) hV _ h36 (Body.ldQ1 i x0) hQ1
  exact (Body.pay1_apply x0 x1 _ h w (k0_pay2 x1) hV _ h45 (k0_pay13 (Body.ldQ2 i x0))
    (Body.plane13_apply x0 _ 1 2 _ hQ2) _ (Body.pay14_apply x0 x1 _ h w _ hV _ hQ2)).trans
    (Body.psum_all x0 x1 _ h w)

end Cert.DynFilter

end
-- ==== Proof.KernelArray.lean ====
/-
  The kernel's output array after the run is the dynamic filter of the padded stack and the filters.

  Grid point `t = 16 b + d` stages the whole batch entry `b` of the padded stack (window 0) and depth `d` of batch
  entry `b` of the filters (window 1), and writes back the plane `(b, 0, d, ·, ·)` of the result (window 2). What the
  body leaves at pixel `(h, w)` is the zero start value plus the 54 channel products read off the two staged blocks
  (`body_apply`); a staged block's entry is the array's entry at the block's position plus the entry's position inside
  the block, so that sum is `conv` of the two arrays at `(b, 0, d, h, w)`. The 32 planes cover the result array.
-/
import proofs.«105764_j65369402245158_1_alg».proof.Proof.Spec
import proofs.«105764_j65369402245158_1_alg».proof.Proof.KernelPoint
import proofs.«105764_j65369402245158_1_alg».proof.Proof.Gen.KernelIdeal.Value
import Idealize.ShloMosaic.Lib.Pipeline.Value
import Idealize.ShloMosaic.Lib.ValueIdx
import Idealize.ShloMosaic.Lib.StableHlo.Run

set_option maxRecDepth 16384

noncomputable section

namespace Cert.DynFilter

open Cert.KernelIdeal Cert.KernelIdeal.Gen Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-- The zero-padded stack of the two candidate volumes, as the host operations before the call compute it: the two
    volumes joined along the candidate axis, then one layer of the converted integer zero around depth, height and width. -/
def padStack (a0 a1 : (⟨S2x1x16x192x192, .f32⟩ : BufTy).Contents (Elt Ideal)) : (⟨S2x2x18x194x194, .f32⟩ : BufTy).Contents (Elt Ideal) :=
  pad S2x2x18x194x194 ![0, 0, 1, 1, 1] ![0, 0, 1, 1, 1] ![0, 0, 0, 0, 0]
    (concatenate S2x2x16x192x192 1 [⟨S2x1x16x192x192, a0⟩, ⟨S2x1x16x192x192, a1⟩] concatenates_S2x1x16x192x192_S2x1x16x192x192_S2x2x16x192x192_d1)
    (sitofp (F := Ideal) .f32 (constantI S_ 32 0#32)) pads_S2x2x16x192x192_S2x2x18x194x194_000_000_110_110_110 h_S_

/-- The array window 0 stages, as the call finds it, is the padded stack of the two candidate arguments. -/
theorem V_main_v1 (c : Dev nD) :
    (V m c main_v1 : S2x2x18x194x194.Idx → EReal) = padStack (m ((c : Thread nD τ).loc main_arg0)) (m ((c : Thread nD τ).loc main_arg1)) := by
  dsimp only [V]
  simp only [hostOps0, hostOps0_1, List.flatten_cons, List.flatten_nil, List.append_nil, List.cons_append, List.nil_append]
  after_results
  rfl

/-- The printed index maps, decided over the 32 grid points: point `t` is batch entry `t / 16`, depth `t % 16`; window 0's
    block index moves with the batch entry only, windows 1 and 2 with batch entry and depth. -/
theorem idx_facts : ∀ t : Fin cfg0.N,
    (win0_0.index t (0 : Fin 5) = t.val / 16 ∧ win0_0.index t (1 : Fin 5) = 0 ∧ win0_0.index t (2 : Fin 5) = 0
      ∧ win0_0.index t (3 : Fin 5) = 0 ∧ win0_0.index t (4 : Fin 5) = 0)
    ∧ (win0_1.index t (0 : Fin 5) = t.val / 16 ∧ win0_1.index t (1 : Fin 5) = 0 ∧ win0_1.index t (2 : Fin 5) = t.val % 16
      ∧ win0_1.index t (3 : Fin 5) = 0 ∧ win0_1.index t (4 : Fin 5) = 0)
    ∧ (win0_2.index t (0 : Fin 5) = t.val / 16 ∧ win0_2.index t (1 : Fin 5) = 0 ∧ win0_2.index t (2 : Fin 5) = t.val % 16
      ∧ win0_2.index t (3 : Fin 5) = 0 ∧ win0_2.index t (4 : Fin 5) = 0)
    ∧ ((grid0.coords t) 1).val = t.val % 16 :=
  (by decide +kernel : ∀ t : Fin grid0.N, _)

/-- WHAT POINT `t` WRITES BACK is block `t` of the dynamic filter of the two staged arrays as the call finds them. -/
theorem flushed_eq (c : Dev nD) (t : Fin cfg0.N) :
    (dats m 0 c).flushed 2 t = ((cfg0.win 2).blk t).view.read (Elt Ideal) (conv (V m c main_v1) (V m c main_arg2)) := by
  rw [Cert.KernelIdeal.Value.flushed2_A]
  obtain ⟨⟨p0, p1, p2, p3, p4⟩, ⟨f0, f1, f2, f3, f4⟩, ⟨o0, o1, o2, o3, o4⟩, hd⟩ := idx_facts t
  funext j
  obtain ⟨h, w, rfl⟩ : ∃ (h w : Fin 192), j = ix5 (n0 := 1) (n1 := 1) (n2 := 1) (n3 := 192) (n4 := 192) (0 : Fin 1) (0 : Fin 1) (0 : Fin 1) h w :=
    ⟨j 3, j 4, by
      funext a
      match a with
      | ⟨0, _⟩ => exact Fin.ext (by have h0 : (j 0).val < 1 := (j 0).isLt; show (j 0).val = 0; omega)
      | ⟨1, _⟩ => exact Fin.ext (by have h1 : (j 1).val < 1 := (j 1).isLt; show (j 1).val = 0; omega)
      | ⟨2, _⟩ => exact Fin.ext (by have h2 : (j 2).val < 1 := (j 2).isLt; show (j 2).val = 0; omega)
      | ⟨3, _⟩ => rfl
      | ⟨4, _⟩ => rfl⟩
  show out0_A_2 (F := Ideal) c (grid0.coords t) (ms0_0 t) (hs0_0 t) (ms0_1 t) (hs0_1 t) (ms0_2 t) (hs0_2 t) (iblk m c 0 t) (iblk m c 1 t)
      (ix5 (n0 := 1) (n1 := 1) (n2 := 1) (n3 := 192) (n4 := 192) (0 : Fin 1) (0 : Fin 1) (0 : Fin 1) h w)
    = conv (V m c main_v1) (V m c main_arg2) (((cfg0.win 2).blk t).view.emb (ix5 (n0 := 1) (n1 := 1) (n2 := 1) (n3 := 192) (n4 := 192) (0 : Fin 1) (0 : Fin 1) (0 : Fin 1) h w))
  refine (body_apply c (grid0.coords t) (ms0_0 t) (hs0_0 t) (ms0_1 t) (hs0_1 t) (ms0_2 t) (hs0_2 t) (iblk m c 0 t) (iblk m c 1 t) h w).trans ?_
  unfold conv
  refine congrArg (_ + ·) (Finset.sum_congr rfl fun k _ => ?_)
  unfold blkTerm tapTerm
  have hk : k.val < 54 := k.isLt
  have hh : h.val < 192 := h.isLt
  have hw : w.val < 192 := w.isLt
  -- the padded stack's staged block, read where channel `k` reads it, is the array at the batch entry's offset
  have hP : iblk m c 0 t (blkTapIdx ⟨(grid0.coords t 1).val, (grid0.coords t 1).isLt⟩ k h w)
      = V m c main_v1 (tapIdx (((cfg0.win 2).blk t).view.emb (ix5 (n0 := 1) (n1 := 1) (n2 := 1) (n3 := 192) (n4 := 192) (0 : Fin 1) (0 : Fin 1) (0 : Fin 1) h w) 0) k
          (((cfg0.win 2).blk t).view.emb (ix5 (n0 := 1) (n1 := 1) (n2 := 1) (n3 := 192) (n4 := 192) (0 : Fin 1) (0 : Fin 1) (0 : Fin 1) h w) 2)
          (((cfg0.win 2).blk t).view.emb (ix5 (n0 := 1) (n1 := 1) (n2 := 1) (n3 := 192) (n4 := 192) (0 : Fin 1) (0 : Fin 1) (0 : Fin 1) h w) 3)
          (((cfg0.win 2).blk t).view.emb (ix5 (n0 := 1) (n1 := 1) (n2 := 1) (n3 := 192) (n4 := 192) (0 : Fin 1) (0 : Fin 1) (0 : Fin 1) h w) 4)) := by
    show V m c main_v1 (((cfg0.win 0).blk t).view.emb (blkTapIdx ⟨(grid0.coords t 1).val, (grid0.coords t 1).isLt⟩ k h w)) = _
    refine congrArg (V m c main_v1) (funext fun a => Fin.ext ?_)
    match a with
    | ⟨0, _⟩ => show win0_0.index t (0 : Fin 5) * 1 + 1 * 0 = win0_2.index t (0 : Fin 5) * 1 + 1 * 0; omega
    | ⟨1, _⟩ => show win0_0.index t (1 : Fin 5) * 2 + 1 * (k.val / 27) = k.val / 27; omega
    | ⟨2, _⟩ => show win0_0.index t (2 : Fin 5) * 18 + 1 * ((grid0.coords t 1).val + k.val % 27 / 9) = (win0_2.index t (2 : Fin 5) * 1 + 1 * 0) + k.val % 27 / 9; omega
    | ⟨3, _⟩ => show win0_0.index t (3 : Fin 5) * 194 + 1 * (h.val + k.val % 9 / 3) = (win0_2.index t (3 : Fin 5) * 192 + 1 * h.val) + k.val % 9 / 3; omega
    | ⟨4, _⟩ => show win0_0.index t (4 : Fin 5) * 194 + 1 * (w.val + k.val % 3) = (win0_2.index t (4 : Fin 5) * 192 + 1 * w.val) + k.val % 3; omega
  -- the filters' staged block likewise, at the batch entry's and the depth's offsets
  have hW : iblk m c 1 t (blkFiltIdx k h w)
      = V m c main_arg2 (filtIdx (((cfg0.win 2).blk t).view.emb (ix5 (n0 := 1) (n1 := 1) (n2 := 1) (n3 := 192) (n4 := 192) (0 : Fin 1) (0 : Fin 1) (0 : Fin 1) h w) 0) k
          (((cfg0.win 2).blk t).view.emb (ix5 (n0 := 1) (n1 := 1) (n2 := 1) (n3 := 192) (n4 := 192) (0 : Fin 1) (0 : Fin 1) (0 : Fin 1) h w) 2)
          (((cfg0.win 2).blk t).view.emb (ix5 (n0 := 1) (n1 := 1) (n2 := 1) (n3 := 192) (n4 := 192) (0 : Fin 1) (0 : Fin 1) (0 : Fin 1) h w) 3)
          (((cfg0.win 2).blk t).view.emb (ix5 (n0 := 1) (n1 := 1) (n2 := 1) (n3 := 192) (n4 := 192) (0 : Fin 1) (0 : Fin 1) (0 : Fin 1) h w) 4)) := by
    show V m c main_arg2 (((cfg0.win 1).blk t).view.emb (blkFiltIdx k h w)) = _
    refine congrArg (V m c main_arg2) (funext fun a => Fin.ext ?_)
    match a with
    | ⟨0, _⟩ => show win0_1.index t (0 : Fin 5) * 1 + 1 * 0 = win0_2.index t (0 : Fin 5) * 1 + 1 * 0; omega
    | ⟨1, _⟩ => show win0_1.index t (1 : Fin 5) * 54 + 1 * k.val = k.val; omega
    | ⟨2, _⟩ => show win0_1.index t (2 : Fin 5) * 1 + 1 * 0 = win0_2.index t (2 : Fin 5) * 1 + 1 * 0; omega
    | ⟨3, _⟩ => show win0_1.index t (3 : Fin 5) * 192 + 1 * h.val = win0_2.index t (3 : Fin 5) * 192 + 1 * h.val; omega
    | ⟨4, _⟩ => show win0_1.index t (4 : Fin 5) * 192 + 1 * w.val = win0_2.index t (4 : Fin 5) * 192 + 1 * w.val; omega
  exact congrArg₂ (fun (a b : EReal) => a * b) hP hW

/-- An index of the result array is in point `t`'s block iff each coordinate is in the block's range on its axis. -/
theorem mem_blk (t : Fin cfg0.N) (i : S2x1x16x192x192.Idx) :
    i ∈ ((cfg0.win 2).blk t).view.set ↔ ∀ a : Fin 5, win0_2.index t a * S1x1x1x192x192.size a ≤ (i a).val ∧ (i a).val < win0_2.index t a * S1x1x1x192x192.size a + S1x1x1x192x192.size a := by
  show i ∈ ((View.whole main_v2).slice (win0_2.rect t)).set ↔ _
  rw [View.set_slice_whole, Rect.mem_set_unit]
  exact Iff.rfl

/-- Every index of the result array lies in the block of the point of its batch entry and depth. -/
theorem cover (i : S2x1x16x192x192.Idx) : ∃ t : Fin cfg0.N, (cfg0.win 2).flush t = true ∧ i ∈ ((cfg0.win 2).blk t).view.set := by
  have h0 : (i 0).val < 2 := (i 0).isLt
  have h1 : (i 1).val < 1 := (i 1).isLt
  have h2 : (i 2).val < 16 := (i 2).isLt
  have h3 : (i 3).val < 192 := (i 3).isLt
  have h4 : (i 4).val < 192 := (i 4).isLt
  have hN : (i 0).val * 16 + (i 2).val < cfg0.N := by show _ < grid0.N; rw [N_0]; omega
  refine ⟨⟨(i 0).val * 16 + (i 2).val, hN⟩, flush0_2 _, ?_⟩
  obtain ⟨-, -, ⟨o0, o1, o2, o3, o4⟩, -⟩ := idx_facts ⟨(i 0).val * 16 + (i 2).val, hN⟩
  have e0 : ((i 0).val * 16 + (i 2).val) / 16 = (i 0).val := by omega
  have e2 : ((i 0).val * 16 + (i 2).val) % 16 = (i 2).val := by omega
  rw [mem_blk]
  intro a
  match a with
  | ⟨0, _⟩ => show win0_2.index _ (0 : Fin 5) * 1 ≤ (i 0).val ∧ (i 0).val < win0_2.index _ (0 : Fin 5) * 1 + 1; rw [o0]; show ((i 0).val * 16 + (i 2).val) / 16 * 1 ≤ _ ∧ _ < ((i 0).val * 16 + (i 2).val) / 16 * 1 + 1; omega
  | ⟨1, _⟩ => show win0_2.index _ (1 : Fin 5) * 1 ≤ (i 1).val ∧ (i 1).val < win0_2.index _ (1 : Fin 5) * 1 + 1; rw [o1]; omega
  | ⟨2, _⟩ => show win0_2.index _ (2 : Fin 5) * 1 ≤ (i 2).val ∧ (i 2).val < win0_2.index _ (2 : Fin 5) * 1 + 1; rw [o2]; show ((i 0).val * 16 + (i 2).val) % 16 * 1 ≤ _ ∧ _ < ((i 0).val * 16 + (i 2).val) % 16 * 1 + 1; omega
  | ⟨3, _⟩ => show win0_2.index _ (3 : Fin 5) * 192 ≤ (i 3).val ∧ (i 3).val < win0_2.index _ (3 : Fin 5) * 192 + 192; rw [o3]; omega
  | ⟨4, _⟩ => show win0_2.index _ (4 : Fin 5) * 192 ≤ (i 4).val ∧ (i 4).val < win0_2.index _ (4 : Fin 5) * 192 + 192; rw [o4]; omega

/-- THE RESULT ARRAY after the run: the dynamic filter of the padded stack and the filters as the call finds them. -/
theorem final (c : Dev nD) : (dats m 0 c).arrAt 2 cfg0.N = conv (V m c main_v1) (V m c main_arg2) :=
  (dats m 0 c).arrAt_eq_of_cover 2 (conv (V m c main_v1) (V m c main_arg2)) (fun t _ => flushed_eq m c t) cover

/-- The kernel's run at the extended reals: the result array ends at the dynamic filter of the padded stack of the two
    candidate arguments and the filter argument, the arguments unchanged. -/
theorem run : θ_run defs (onTc (τ := τ) (main (F := Ideal))) ⟨m, fun _ => 0, ρ⟩ fun r => ∀ c : Dev nD,
      r.2.mem ((c : Thread nD τ).loc main_v2)
          = conv (padStack (m ((c : Thread nD τ).loc main_arg0)) (m ((c : Thread nD τ).loc main_arg1))) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by rw [V_main_v1, V_main_arg2])), (h c).2⟩)
    (Cert.KernelIdeal.Value.run_blocks m ρ)

end Cert.DynFilter

end
-- ==== Proof.RefValueStack.lean ====
/-
  The reference's 27 shifted copies of the padded stack, read at an index.

  The reference cuts the copy at offset `(di, dj, dk)` out of the zero-padded stack `P`, gives it a new unit axis,
  and joins the copies along that axis in the order `j = 9 di + 3 dj + dk`, in two runs: the copies 0 … 15 and the
  copies 16 … 26. A run read at place `t` is the copy at that place (`v56_at`, `v57_at`: a join of unit-extent
  pieces reads the piece its coordinate names), and copy `j` read at `(b, c, 0, d, h, w)` is
  `P (b, c, d + j / 9, h + j % 9 / 3, w + j % 3)` (`lo_at` for `j < 16`, `hi_at` for `j = 16 + n`): the new axis is
  dropped and the cut adds its offset on each of the three spatial axes.
-/
import proofs.«105764_j65369402245158_1_alg».proof.Proof.Spec
import proofs.«105764_j65369402245158_1_alg».proof.Proof.RefRead
import Idealize.ShloMosaic.Lib.Pipeline.Value
import Idealize.ShloMosaic.Lib.ValueIdx
import Idealize.ShloMosaic.Lib.ValueIdxRank6

set_option maxRecDepth 16384

noncomputable section

namespace Cert.DynFilter

open Cert.ReferenceIdeal Cert.ReferenceIdeal.Read Idealize.ShloMosaic Idealize.ShloMosaic.TcCoe Idealize.ShloMosaic.ValueIdx Idealize.SL.Sem

variable (x0 x1 : (⟨S2x1x16x192x192, .f32⟩ : BufTy).Contents (Elt Ideal))

/-- Where copy `j` of the stack reads the padded stack for candidate `c` at the output position `(b, d, h, w)`:
    copy `j` is the one shifted by `(j / 9, j % 9 / 3, j % 3)`. -/
def stackIdx (b c : Fin 2) (j : Nat) (hj : j < 27) (d : Fin 16) (h w : Fin 192) : SP.Idx :=
  ix5 (n0 := 2) (n1 := 2) (n2 := 18) (n3 := 194) (n4 := 194) b c
    ⟨d.val + j / 9, by have := d.isLt; omega⟩
    ⟨h.val + j % 9 / 3, by have := h.isLt; omega⟩
    ⟨w.val + j % 3, by have := w.isLt; omega⟩

/-- The copies 0 … 15 (each with its unit axis), as a table over their place in the first run. -/
def lo16 : Fin 16 → (S2x2x1x16x192x192.Idx → Elt Ideal .f32) :=
  ![val_main_v29 (F := Ideal) x0 x1, val_main_v30 (F := Ideal) x0 x1, val_main_v31 (F := Ideal) x0 x1, val_main_v32 (F := Ideal) x0 x1,
    val_main_v33 (F := Ideal) x0 x1, val_main_v34 (F := Ideal) x0 x1, val_main_v35 (F := Ideal) x0 x1, val_main_v36 (F := Ideal) x0 x1,
    val_main_v37 (F := Ideal) x0 x1, val_main_v38 (F := Ideal) x0 x1, val_main_v39 (F := Ideal) x0 x1, val_main_v40 (F := Ideal) x0 x1,
    val_main_v41 (F := Ideal) x0 x1, val_main_v42 (F := Ideal) x0 x1, val_main_v43 (F := Ideal) x0 x1, val_main_v44 (F := Ideal) x0 x1]

/-- The copies 16 … 26, as a table over their place in the second run. -/
def hi11 : Fin 11 → (S2x2x1x16x192x192.Idx → Elt Ideal .f32) :=
  ![val_main_v45 (F := Ideal) x0 x1, val_main_v46 (F := Ideal) x0 x1, val_main_v47 (F := Ideal) x0 x1, val_main_v48 (F := Ideal) x0 x1,
    val_main_v49 (F := Ideal) x0 x1, val_main_v50 (F := Ideal) x0 x1, val_main_v51 (F := Ideal) x0 x1, val_main_v52 (F := Ideal) x0 x1,
    val_main_v53 (F := Ideal) x0 x1, val_main_v54 (F := Ideal) x0 x1, val_main_v55 (F := Ideal) x0 x1]

/-- An index of a unit-axis copy and an index of a run agree off the joined axis (axis 2). -/
theorem off_axis2 {n : Nat} (b c : Fin 2) (t : Fin n) (d : Fin 16) (h w : Fin 192)
    (a : Fin 6) (ha : a ≠ (2 : Fin 6)) :
    ((ix6 (n0 := 2) (n1 := 2) (n2 := 1) (n3 := 16) (n4 := 192) (n5 := 192) b c (0 : Fin 1) d h w) a).val
      = ((ix6 (n0 := 2) (n1 := 2) (n2 := n) (n3 := 16) (n4 := 192) (n5 := 192) b c t d h w) a).val := by
  match a with
  | ⟨0, _⟩ => rfl
  | ⟨1, _⟩ => rfl
  | ⟨2, _⟩ => exact absurd rfl ha
  | ⟨3, _⟩ => rfl
  | ⟨4, _⟩ => rfl
  | ⟨5, _⟩ => rfl

/-- The first run at place `t` is copy `t`: a join of sixteen unit-extent pieces reads the piece its coordinate names. -/
theorem v56_at (b c : Fin 2) (t : Fin 16) (d : Fin 16) (h w : Fin 192) :
    val_main_v56 (F := Ideal) x0 x1 (ix6 (n0 := 2) (n1 := 2) (n2 := 16) (n3 := 16) (n4 := 192) (n5 := 192) b c t d h w)
      = lo16 x0 x1 t (ix6 (n0 := 2) (n1 := 2) (n2 := 1) (n3 := 16) (n4 := 192) (n5 := 192) b c (0 : Fin 1) d h w) := by
  unfold val_main_v56
  exact concatenate_ofFn_unit_apply (t := S2x2x16x16x192x192) (s₁ := S2x2x1x16x192x192) (2 : Fin 6) (lo16 x0 x1) _ rfl rfl _ t rfl _
    (fun a ha => off_axis2 b c t d h w a ha)

/-- The second run at place `t` is copy `16 + t`. -/
theorem v57_at (b c : Fin 2) (t : Fin 11) (d : Fin 16) (h w : Fin 192) :
    val_main_v57 (F := Ideal) x0 x1 (ix6 (n0 := 2) (n1 := 2) (n2 := 11) (n3 := 16) (n4 := 192) (n5 := 192) b c t d h w)
      = hi11 x0 x1 t (ix6 (n0 := 2) (n1 := 2) (n2 := 1) (n3 := 16) (n4 := 192) (n5 := 192) b c (0 : Fin 1) d h w) := by
  unfold val_main_v57
  exact concatenate_ofFn_unit_apply (t := S2x2x11x16x192x192) (s₁ := S2x2x1x16x192x192) (2 : Fin 6) (hi11 x0 x1) _ rfl rfl _ t rfl _
    (fun a ha => off_axis2 b c t d h w a ha)

/-- One copy read at an index: the unit axis is dropped (the broadcast's read), then the cut is the padded stack at
    the shifted position (the slice's read); the two index maps composed are `stackIdx`, axis by axis (on a shifted
    axis the cut adds its offset on the left, `stackIdx` on the right). -/
syntax "read_tap " ident ", " ident : tactic
macro_rules
  | `(tactic| read_tap $bA, $sA) => `(tactic| (
      refine ($bA _ _ _).trans (($sA _ _ _).trans (congrArg _ (funext fun a => Fin.ext ?_)))
      match a with
      | ⟨0, _⟩ => rfl
      | ⟨1, _⟩ => rfl
      | ⟨2, _⟩ => first | rfl | exact Nat.add_comm _ _
      | ⟨3, _⟩ => first | rfl | exact Nat.add_comm _ _
      | ⟨4, _⟩ => first | rfl | exact Nat.add_comm _ _))

/-- Copy `n` of the first run is the padded stack shifted by copy `n`'s offset. -/
theorem lo_at (b c : Fin 2) (d : Fin 16) (h w : Fin 192) : ∀ (n : Nat) (hn : n < 16),
    lo16 x0 x1 ⟨n, hn⟩ (ix6 (n0 := 2) (n1 := 2) (n2 := 1) (n3 := 16) (n4 := 192) (n5 := 192) b c (0 : Fin 1) d h w)
      = val_main_v1 (F := Ideal) x0 x1 (stackIdx b c n (by omega) d h w)
  | 0, _ => by read_tap val_main_v29_apply, val_main_v2_apply
  | 1, _ => by read_tap val_main_v30_apply, val_main_v3_apply
  | 2, _ => by read_tap val_main_v31_apply, val_main_v4_apply
  | 3, _ => by read_tap val_main_v32_apply, val_main_v5_apply
  | 4, _ => by read_tap val_main_v33_apply, val_main_v6_apply
  | 5, _ => by read_tap val_main_v34_apply, val_main_v7_apply
  | 6, _ => by read_tap val_main_v35_apply, val_main_v8_apply
  | 7, _ => by read_tap val_main_v36_apply, val_main_v9_apply
  | 8, _ => by read_tap val_main_v37_apply, val_main_v10_apply
  | 9, _ => by read_tap val_main_v38_apply, val_main_v11_apply
  | 10, _ => by read_tap val_main_v39_apply, val_main_v12_apply
  | 11, _ => by read_tap val_main_v40_apply, val_main_v13_apply
  | 12, _ => by read_tap val_main_v41_apply, val_main_v14_apply
  | 13, _ => by read_tap val_main_v42_apply, val_main_v15_apply
  | 14, _ => by read_tap val_main_v43_apply, val_main_v16_apply
  | 15, _ => by read_tap val_main_v44_apply, val_main_v17_apply
  | n + 16, hn => absurd hn (by omega)

/-- Copy `n` of the second run is the padded stack shifted by copy `16 + n`'s offset. -/
theorem hi_at (b c : Fin 2) (d : Fin 16) (h w : Fin 192) : ∀ (n : Nat) (hn : n < 11),
    hi11 x0 x1 ⟨n, hn⟩ (ix6 (n0 := 2) (n1 := 2) (n2 := 1) (n3 := 16) (n4 := 192) (n5 := 192) b c (0 : Fin 1) d h w)
      = val_main_v1 (F := Ideal) x0 x1 (stackIdx b c (16 + n) (by omega) d h w)
  | 0, _ => by read_tap val_main_v45_apply, val_main_v18_apply
  | 1, _ => by read_tap val_main_v46_apply, val_main_v19_apply
  | 2, _ => by read_tap val_main_v47_apply, val_main_v20_apply
  | 3, _ => by read_tap val_main_v48_apply, val_main_v21_apply
  | 4, _ => by read_tap val_main_v49_apply, val_main_v22_apply
  | 5, _ => by read_tap val_main_v50_apply, val_main_v23_apply
  | 6, _ => by read_tap val_main_v51_apply, val_main_v24_apply
  | 7, _ => by read_tap val_main_v52_apply, val_main_v25_apply
  | 8, _ => by read_tap val_main_v53_apply, val_main_v26_apply
  | 9, _ => by read_tap val_main_v54_apply, val_main_v27_apply
  | 10, _ => by read_tap val_main_v55_apply, val_main_v28_apply
  | n + 11, hn => absurd hn (by omega)

end Cert.DynFilter

end
-- ==== Proof.RefValue.lean ====
/-
  The reference's result as the dynamic filter of the padded stack.

  The reference cuts 27 shifted copies out of the zero-padded stack (offsets `(di, dj, dk)`, `di` slowest), stacks
  them along a new axis in that order, folds the candidate and offset axes into one axis of 54 channels
  (`k = 27 c + 9 di + 3 dj + dk`), multiplies by the filters and sums over the 54 channels. So its value at
  `(b, 0, d, h, w)` is the zero start value plus the sum over `k` of the padded stack at
  `(b, k / 27, d + (k % 27) / 9, h + (k % 9) / 3, w + k % 3)` times the filter at `(b, k, d, h, w)`: `conv`.
-/
import proofs.«105764_j65369402245158_1_alg».proof.Proof.Spec
import proofs.«105764_j65369402245158_1_alg».proof.Proof.RefRead
import proofs.«105764_j65369402245158_1_alg».proof.Proof.RefValueStack
import Idealize.ShloMosaic.Lib.Pipeline.Value
import Idealize.ShloMosaic.Lib.ValueIdx
import Idealize.ShloMosaic.Lib.ValueIdxRank6
import Idealize.ShloMosaic.Lib.ValueLayout

set_option maxRecDepth 16384

noncomputable section

namespace Cert.DynFilter

open Cert.ReferenceIdeal Cert.ReferenceIdeal.Read Idealize.ShloMosaic Idealize.ShloMosaic.TcCoe Idealize.ShloMosaic.ValueIdx Idealize.SL.Sem

section Stack

variable (x0 x1 : (⟨S2x1x16x192x192, .f32⟩ : BufTy).Contents (Elt Ideal))

/-- The two runs joined, at a place below 16: the first run (it spans the places 0 … 15) at the same place. -/
theorem v58_lo (b c : Fin 2) (n : Nat) (hn : n < 16) (d : Fin 16) (h w : Fin 192) :
    val_main_v58 (F := Ideal) x0 x1
        (ix6 (n0 := 2) (n1 := 2) (n2 := 27) (n3 := 16) (n4 := 192) (n5 := 192) b c ⟨n, by omega⟩ d h w)
      = val_main_v56 (F := Ideal) x0 x1
        (ix6 (n0 := 2) (n1 := 2) (n2 := 16) (n3 := 16) (n4 := 192) (n5 := 192) b c ⟨n, hn⟩ d h w) := by
  unfold val_main_v58
  refine concatenate_apply_piece (t := S2x2x27x16x192x192) (2 : Fin 6) _ _ _ 0 ?hk S2x2x16x16x192x192 _ ?hxk rfl 0 ?hpre _ ?hi ?ha
  case hk => exact Nat.le_of_ble_eq_true rfl
  case hxk => rfl
  case hpre => rfl
  case ha => exact Nat.zero_add _
  case hi =>
    intro a ha
    match a with
    | ⟨0, _⟩ => rfl
    | ⟨1, _⟩ => rfl
    | ⟨2, _⟩ => exact absurd rfl ha
    | ⟨3, _⟩ => rfl
    | ⟨4, _⟩ => rfl
    | ⟨5, _⟩ => rfl

/-- The two runs joined, at a place `16 + m`: the second run (it spans the places 16 … 26) at place `m`. -/
theorem v58_hi (b c : Fin 2) (m : Nat) (hm : m < 11) (d : Fin 16) (h w : Fin 192) :
    val_main_v58 (F := Ideal) x0 x1
        (ix6 (n0 := 2) (n1 := 2) (n2 := 27) (n3 := 16) (n4 := 192) (n5 := 192) b c ⟨16 + m, by omega⟩ d h w)
      = val_main_v57 (F := Ideal) x0 x1
        (ix6 (n0 := 2) (n1 := 2) (n2 := 11) (n3 := 16) (n4 := 192) (n5 := 192) b c ⟨m, hm⟩ d h w) := by
  unfold val_main_v58
  refine concatenate_apply_piece (t := S2x2x27x16x192x192) (2 : Fin 6) _ _ _ 1 ?hk S2x2x11x16x192x192 _ ?hxk rfl 16 ?hpre _ ?hi ?ha
  case hk => exact Nat.le_of_ble_eq_true rfl
  case hxk => rfl
  case hpre => rfl
  case ha => rfl
  case hi =>
    intro a ha
    match a with
    | ⟨0, _⟩ => rfl
    | ⟨1, _⟩ => rfl
    | ⟨2, _⟩ => exact absurd rfl ha
    | ⟨3, _⟩ => rfl
    | ⟨4, _⟩ => rfl
    | ⟨5, _⟩ => rfl

/-- The stack of 27 copies at place `j` is the padded stack shifted by copy `j`'s offset. -/
theorem stack_at (b c : Fin 2) (j : Fin 27) (d : Fin 16) (h w : Fin 192) :
    val_main_v58 (F := Ideal) x0 x1 (ix6 (n0 := 2) (n1 := 2) (n2 := 27) (n3 := 16) (n4 := 192) (n5 := 192) b c j d h w)
      = val_main_v1 (F := Ideal) x0 x1 (stackIdx b c j.val j.isLt d h w) := by
  obtain ⟨n, hn⟩ := j
  by_cases hlt : n < 16
  · exact (v58_lo x0 x1 b c n hlt d h w).trans
      ((v56_at x0 x1 b c ⟨n, hlt⟩ d h w).trans (lo_at x0 x1 b c d h w n hlt))
  · obtain ⟨m, rfl⟩ : ∃ m, n = 16 + m := ⟨n - 16, by omega⟩
    have hm : m < 11 := by omega
    exact (v58_hi x0 x1 b c m hm d h w).trans
      ((v57_at x0 x1 b c ⟨m, hm⟩ d h w).trans (hi_at x0 x1 b c d h w m hm))

/-- Folding the candidate axis and the copy axis into 54 channels keeps the row-major position
    (`((b · 2 + c) · 27 + j) = b · 54 + (27 c + j)`), so channel `k` is candidate `k / 27`, copy `k % 27`. -/
theorem v59_at (b : Fin 2) (k : Fin 54) (d : Fin 16) (h w : Fin 192) :
    val_main_v59 (F := Ideal) x0 x1 (ix5 (n0 := 2) (n1 := 54) (n2 := 16) (n3 := 192) (n4 := 192) b k d h w)
      = val_main_v58 (F := Ideal) x0 x1
        (ix6 (n0 := 2) (n1 := 2) (n2 := 27) (n3 := 16) (n4 := 192) (n5 := 192) b
          ⟨k.val / 27, by have := k.isLt; omega⟩ ⟨k.val % 27, by omega⟩ d h w) := by
  unfold val_main_v59
  refine shapeCast_apply _ _ _ _ ?_
  rw [Shape.rowMajor_val_six, Shape.rowMajor_val_five]
  show ((((b.val * 2 + k.val / 27) * 27 + k.val % 27) * 16 + d.val) * 192 + h.val) * 192 + w.val
      = (((b.val * 54 + k.val) * 16 + d.val) * 192 + h.val) * 192 + w.val
  omega

/-- Channel `k` of the folded stack reads the padded stack at `tapIdx`: copy `k % 27`'s offset is
    `(k % 27 / 9, k % 27 % 9 / 3, k % 27 % 3) = (k % 27 / 9, k % 9 / 3, k % 3)`. -/
theorem chan_at (b : Fin 2) (k : Fin 54) (d : Fin 16) (h w : Fin 192) :
    val_main_v59 (F := Ideal) x0 x1 (ix5 (n0 := 2) (n1 := 54) (n2 := 16) (n3 := 192) (n4 := 192) b k d h w)
      = val_main_v1 (F := Ideal) x0 x1 (tapIdx b k d h w) := by
  refine (v59_at x0 x1 b k d h w).trans
    ((stack_at x0 x1 b ⟨k.val / 27, _⟩ ⟨k.val % 27, _⟩ d h w).trans (congrArg _ (funext fun a => Fin.ext ?_)))
  match a with
  | ⟨0, _⟩ => rfl
  | ⟨1, _⟩ => rfl
  | ⟨2, _⟩ => rfl
  | ⟨3, _⟩ =>
    show h.val + k.val % 27 % 9 / 3 = h.val + k.val % 9 / 3
    omega
  | ⟨4, _⟩ =>
    show w.val + k.val % 27 % 3 = w.val + k.val % 3
    omega

end Stack

/-- The reference's last stage is the dynamic filter of its padded stage and the filters. -/
theorem ref_eq (x0 x1 : (⟨S2x1x16x192x192, .f32⟩ : BufTy).Contents (Elt Ideal)) (x2 : (⟨S2x54x16x192x192, .f32⟩ : BufTy).Contents (Elt Ideal)) :
    val_main_v62 (F := Ideal) x0 x1 x2 = conv (val_main_v1 (F := Ideal) x0 x1) x2 := by
  funext (i : S2x1x16x192x192.Idx)
  -- the output position by coordinates: `(b, 0, d, h, w)`
  obtain ⟨b, u, d, h, w, rfl⟩ : ∃ (b : Fin 2) (u : Fin 1) (d : Fin 16) (h w : Fin 192),
      i = ix5 (n0 := 2) (n1 := 1) (n2 := 16) (n3 := 192) (n4 := 192) b u d h w :=
    ⟨_, _, _, _, _, eq_ix5 i⟩
  rw [val_main_v62_apply, val_main_v61_apply]
  show _ + _ = Ideal.ofBits .f32 0x00000000#32
      + ∑ k : Fin 54, tapTerm (val_main_v1 (F := Ideal) x0 x1) x2 b d h w k
  refine congrArg₂ (· + ·) rfl (Finset.sum_congr rfl fun k _ => ?_)
  -- the reduction's index at channel `k` is `(b, k, d, h, w)`
  have e : idx_main_v61 (idx_main_v62 (ix5 (n0 := 2) (n1 := 1) (n2 := 16) (n3 := 192) (n4 := 192) b u d h w)) k
      = ix5 (n0 := 2) (n1 := 54) (n2 := 16) (n3 := 192) (n4 := 192) b k d h w := by
    funext a
    match a with
    | ⟨0, _⟩ => rfl
    | ⟨1, _⟩ => rfl
    | ⟨2, _⟩ => rfl
    | ⟨3, _⟩ => rfl
    | ⟨4, _⟩ => rfl
  rw [val_main_v60_apply, e]
  -- the product of the channel's two factors: the folded stack at `(b, k, d, h, w)` is the padded stack at `tapIdx`
  exact congrArg (· * x2 (ix5 (n0 := 2) (n1 := 54) (n2 := 16) (n3 := 192) (n4 := 192) b k d h w)) (chan_at x0 x1 b k d h w)

end Cert.DynFilter

end
-- ==== Proof.lean ====
/-
  The certificate of a dynamic-filter kernel against its array-level reference.

  Both programs join the two candidate volumes along a candidate axis and pad depth, height and width by one layer of
  zeros; call the result `P`. The reference cuts the 27 shifted copies of `P`, stacks them into 54 channels
  (`k = 27 c + 9 di + 3 dj + dk`), multiplies by the filters `W` and sums over the channels. The kernel, at each batch
  entry and depth, keeps the padded batch entry staged, loads the six planes `(c, d + di)` and adds the 54 products
  `P (b, c, d + di, h + dj, w + dk) · W (b, k, d, h, w)` to a zero start value one after the other. On the extended reals
  both are the zero start value plus the sum over the 54 channels of those products (`Cert.DynFilter.conv`): the two
  groupings of the sum agree because addition is associative, and no step needs the inputs to be finite.

  The kernel's side is `Cert.DynFilter.run` (the output array after the run is `conv` of the padded stack and the
  filters, read off the frame run block by block); the reference's side is its run read back one operation at a time
  and `Cert.DynFilter.ref_eq`. The three frame claims are the generated frames (the reference's is its run with the
  result dropped); the idealization rewrote nothing, so `preserves` is trivial.
-/
import proofs.«105764_j65369402245158_1_alg».proof.Defs
import proofs.«105764_j65369402245158_1_alg».proof.Proof.Gen.Kernel
import proofs.«105764_j65369402245158_1_alg».proof.Proof.Gen.Kernel.Skeleton
import proofs.«105764_j65369402245158_1_alg».proof.Proof.Gen.Kernel.Launch
import proofs.«105764_j65369402245158_1_alg».proof.Proof.Gen.Kernel.Points
import proofs.«105764_j65369402245158_1_alg».proof.Proof.Gen.Kernel.Frame
import proofs.«105764_j65369402245158_1_alg».proof.Proof.Gen.KernelIdeal
import proofs.«105764_j65369402245158_1_alg».proof.Proof.Gen.KernelIdeal.Skeleton
import proofs.«105764_j65369402245158_1_alg».proof.Proof.Gen.KernelIdeal.Launch
import proofs.«105764_j65369402245158_1_alg».proof.Proof.Gen.KernelIdeal.Points
import proofs.«105764_j65369402245158_1_alg».proof.Proof.Gen.KernelIdeal.Frame
import proofs.«105764_j65369402245158_1_alg».proof.Proof.Gen.ReferenceIdeal
import proofs.«105764_j65369402245158_1_alg».proof.Proof.Gen.Pre_finite_inputs
import proofs.«105764_j65369402245158_1_alg».proof.Proof.Gen.KernelIdeal.Value
import proofs.«105764_j65369402245158_1_alg».proof.Proof.RefRun
import proofs.«105764_j65369402245158_1_alg».proof.Proof.RefRead
import proofs.«105764_j65369402245158_1_alg».proof.Proof.Spec
import proofs.«105764_j65369402245158_1_alg».proof.Proof.KernelArray
import proofs.«105764_j65369402245158_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The padded stack the kernel's host operations build is the reference's padded stage: the same two operations of
    the same two arrays. -/
theorem padStack_eq (a0 a1 : (⟨Cert.KernelIdeal.S2x1x16x192x192, .f32⟩ : BufTy).Contents (Elt Ideal)) :
    Cert.DynFilter.padStack a0 a1 = Cert.ReferenceIdeal.Read.val_main_v1 (F := Ideal) a0 a1 := by
  unfold Cert.DynFilter.padStack Cert.ReferenceIdeal.Read.val_main_v1 Cert.ReferenceIdeal.Read.val_main_v0
    Cert.ReferenceIdeal.Read.val_main_call0_v0 Cert.ReferenceIdeal.Read.val_main_c
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the dynamic filter of the padded stack
    of the candidates and the filters in their result arrays, the arguments unchanged. -/
theorem algebraic : Cert.algebraic_KernelIdeal_ReferenceIdeal := by
  intro m ρ m' ρ' _ hagree
  refine ⟨_, Cert.DynFilter.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v62_eq, Cert.DynFilter.ref_eq, (hagree c).1, (hagree c).2.1, (hagree c).2.2,
    ← padStack_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
